-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S_ : Shape := ⟨0, ![]⟩

class Facts : Prop where
  bcast_S_S8x96x256x256 : S_.BroadcastsInDim S8x96x256x256 (![] : Fin 0 → Fin S8x96x256x256.rank)
  reducesTo_S8x96x256x256_S_d0_1_2_3 : S8x96x256x256.ReducesTo [0, 1, 2, 3] S_
  h_S_ : 0 < S_.numel
  bcast_S_S12x96 : S_.BroadcastsInDim S12x96 (![] : Fin 0 → Fin S12x96.rank)
  reducesTo_S12x96_S_d0_1 : S12x96.ReducesTo [0, 1] S_
  bcast_S_S12 : S_.BroadcastsInDim S12 (![] : Fin 0 → Fin S12.rank)
  reducesTo_S12_S_d0 : S12.ReducesTo [0] S_
  bcast_S_S9x12 : S_.BroadcastsInDim S9x12 (![] : Fin 0 → Fin S9x12.rank)
  reducesTo_S9x12_S_d0_1 : S9x12.ReducesTo [0, 1] S_
  bcast_S_S9 : S_.BroadcastsInDim S9 (![] : Fin 0 → Fin S9.rank)
  reducesTo_S9_S_d0 : S9.ReducesTo [0] S_

variable [Facts]

def fn_part1 {F : FTy → Type} [FloatOps F] (main_arg4 : FVec F S9 .f32) (main_v13 : IVec S_ 1) (main_v16 : IVec S9x12 1) : IVec S_ 1 :=
  let main_c_5 : IVec S_ 1 := constantI S_ 1 1#1
  let main_v17 : IVec S_ 1 := (fun x v => Host.reduce IntOp.andi x v reducesTo_S9x12_S_d0_1 h_S_) main_v16 main_c_5
  let main_v18 : IVec S_ 1 := andi main_v13 main_v17
  let main_v19 : FVec F S9 .f32 := Host.absf main_arg4
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  main_v23

def fn {F : FTy → Type} [FloatOps F] (main_arg0 : FVec F S8x96x256x256 .f32) (main_arg1 : FVec F S12x96 .f32) (main_arg2 : FVec F S12 .f32) (main_arg3 : FVec F S9x12 .f32) (main_arg4 : FVec F S9 .f32) : IVec S_ 1 :=
  let main_v0 : FVec F S8x96x256x256 .f32 := Host.absf main_arg0
  let main_cst : FVec F S_ .f32 := constant S_ .f32 0x7F800000#32
  let main_v1 : FVec F S8x96x256x256 .f32 := broadcastInDim S8x96x256x256 ![] bcast_S_S8x96x256x256 main_cst
  let main_v2 : IVec S8x96x256x256 1 := cmpf .olt main_v0 main_v1
  let main_c : IVec S_ 1 := constantI S_ 1 1#1
  let main_v3 : IVec S_ 1 := (fun x v => Host.reduce IntOp.andi x v reducesTo_S8x96x256x256_S_d0_1_2_3 h_S_) main_v2 main_c
  let main_v4 : FVec F S12x96 .f32 := Host.absf main_arg1
  let main_cst_0 : FVec F S_ .f32 := constant S_ .f32 0x7F800000#32
  let main_v5 : FVec F S12x96 .f32 := broadcastInDim S12x96 ![] bcast_S_S12x96 main_cst_0
  let main_v6 : IVec S12x96 1 := cmpf .olt main_v4 main_v5
  let main_c_1 : IVec S_ 1 := constantI S_ 1 1#1
  let main_v7 : IVec S_ 1 := (fun x v => Host.reduce IntOp.andi x v reducesTo_S12x96_S_d0_1 h_S_) main_v6 main_c_1
  let main_v8 : IVec S_ 1 := andi main_v3 main_v7
  let main_v9 : FVec F S12 .f32 := Host.absf main_arg2
  let main_cst_2 : FVec F S_ .f32 := constant S_ .f32 0x7F800000#32
  let main_v10 : FVec F S12 .f32 := broadcastInDim S12 ![] bcast_S_S12 main_cst_2
  let main_v11 : IVec S12 1 := cmpf .olt main_v9 main_v10
  let main_c_3 : IVec S_ 1 := constantI S_ 1 1#1
  let main_v12 : IVec S_ 1 := (fun x v => Host.reduce IntOp.andi x v reducesTo_S12_S_d0 h_S_) main_v11 main_c_3
  let main_v13 : IVec S_ 1 := andi main_v8 main_v12
  let main_v14 : FVec F S9x12 .f32 := Host.absf main_arg3
  let main_cst_4 : FVec F S_ .f32 := constant S_ .f32 0x7F800000#32
  let main_v15 : FVec F S9x12 .f32 := broadcastInDim S9x12 ![] bcast_S_S9x12 main_cst_4
  let main_v16 : IVec S9x12 1 := cmpf .olt main_v14 main_v15
  fn_part1 (F := F) main_arg4 main_v13 main_v16
-- ==== Kernel.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S96x8 : Shape := ⟨2, ![96, 8]⟩
abbrev S8x8x256x256 : Shape := ⟨4, ![8, 8, 256, 256]⟩
abbrev S8x8 : Shape := ⟨2, ![8, 8]⟩
abbrev S8x8x256 : Shape := ⟨3, ![8, 8, 256]⟩
abbrev S8x96 : Shape := ⟨2, ![8, 96]⟩
abbrev S96x12 : Shape := ⟨2, ![96, 12]⟩
abbrev S8x12 : Shape := ⟨2, ![8, 12]⟩
abbrev S1x12 : Shape := ⟨2, ![1, 12]⟩
abbrev S_ : Shape := ⟨0, ![]⟩
abbrev S12x9 : Shape := ⟨2, ![12, 9]⟩
abbrev S8x9 : Shape := ⟨2, ![8, 9]⟩
abbrev S1x9 : Shape := ⟨2, ![1, 9]⟩
abbrev S8 : Shape := ⟨1, ![8]⟩
abbrev S8x1 : Shape := ⟨2, ![8, 1]⟩
abbrev S8x2x256x256 : Shape := ⟨4, ![8, 2, 256, 256]⟩
abbrev S8x2x255x256 : Shape := ⟨4, ![8, 2, 255, 256]⟩
abbrev S8x2x1x256 : Shape := ⟨4, ![8, 2, 1, 256]⟩
abbrev S8x2x256x255 : Shape := ⟨4, ![8, 2, 256, 255]⟩
abbrev S8x2x256x1 : Shape := ⟨4, ![8, 2, 256, 1]⟩
abbrev S8x1x1x1 : Shape := ⟨4, ![8, 1, 1, 1]⟩

abbrev nBuf : Space → Nat
  | .hbm => 35
  | .vmem => 9
  | .smem => 0
  | _ => 0

abbrev bufTy : (tb : Table) → Fin (tcTables nBuf tb) → BufTy
  | .hbm, ⟨0, _⟩ => ⟨S8x96x256x256, .f32⟩
  | .hbm, ⟨1, _⟩ => ⟨S12x96, .f32⟩
  | .hbm, ⟨2, _⟩ => ⟨S12, .f32⟩
  | .hbm, ⟨3, _⟩ => ⟨S9x12, .f32⟩
  | .hbm, ⟨4, _⟩ => ⟨S9, .f32⟩
  | .hbm, ⟨5, _⟩ => ⟨S96x8, .f32⟩
  | .hbm, ⟨6, _⟩ => ⟨S8x96, .f32⟩
  | .hbm, ⟨7, _⟩ => ⟨S96x12, .f32⟩
  | .hbm, ⟨8, _⟩ => ⟨S8x12, .f32⟩
  | .hbm, ⟨9, _⟩ => ⟨S1x12, .f32⟩
  | .hbm, ⟨10, _⟩ => ⟨S8x12, .f32⟩
  | .hbm, ⟨11, _⟩ => ⟨S8x12, .f32⟩
  | .hbm, ⟨12, _⟩ => ⟨S_, .f32⟩
  | .hbm, ⟨13, _⟩ => ⟨S8x12, .f32⟩
  | .hbm, ⟨14, _⟩ => ⟨S8x12, .f32⟩
  | .hbm, ⟨15, _⟩ => ⟨S12x9, .f32⟩
  | .hbm, ⟨16, _⟩ => ⟨S8x9, .f32⟩
  | .hbm, ⟨17, _⟩ => ⟨S1x9, .f32⟩
  | .hbm, ⟨18, _⟩ => ⟨S8x9, .f32⟩
  | .hbm, ⟨19, _⟩ => ⟨S8x9, .f32⟩
  | .hbm, ⟨20, _⟩ => ⟨S_, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S8x1, .f32⟩
  | .hbm, ⟨26, _⟩ => ⟨S8x9, .f32⟩
  | .hbm, ⟨27, _⟩ => ⟨S8x9, .f32⟩
  | .hbm, ⟨28, _⟩ => ⟨S8x9, .f32⟩
  | .hbm, ⟨29, _⟩ => ⟨S_, .f32⟩
  | .hbm, ⟨30, _⟩ => ⟨S8, .f32⟩
  | .hbm, ⟨31, _⟩ => ⟨S8x1, .f32⟩
  | .hbm, ⟨32, _⟩ => ⟨S8x9, .f32⟩
  | .hbm, ⟨33, _⟩ => ⟨S8x9, .f32⟩
  | .hbm, ⟨34, _⟩ => ⟨S8x96x256x256, .f32⟩
  | .local _ .vmem, ⟨0, _⟩ => ⟨S8x8x256x256, .f32⟩
  | .local _ .vmem, ⟨1, _⟩ => ⟨S8x8x256x256, .f32⟩
  | .local _ .vmem, ⟨2, _⟩ => ⟨S8x8, .f32⟩
  | .local _ .vmem, ⟨3, _⟩ => ⟨S8x8, .f32⟩
  | .local _ .vmem, ⟨4, _⟩ => ⟨S8x9, .f32⟩
  | .local _ .vmem, ⟨5, _⟩ => ⟨S8x2x256x256, .f32⟩
  | .local _ .vmem, ⟨6, _⟩ => ⟨S8x2x256x256, .f32⟩
  | .local _ .vmem, ⟨7, _⟩ => ⟨S8x2x256x256, .f32⟩
  | .local _ .vmem, ⟨8, _⟩ => ⟨S8x2x256x256, .f32⟩
  | _, _ => ⟨S8x96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![12], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S8x9 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x2x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x2x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x8x256x256_S8x8x256x256_0_0_0_0 : ∀ a, (![0, 0, 0, 0] : Fin 4 → Nat) a + S8x8x256x256.size a ≤ S8x8x256x256.size a
  h_S8x8x256x256 : 0 < S8x8x256x256.numel
  reduces_S8x8x256x256_S8x8x256 : S8x8x256x256.Reduces [3] S8x8x256
  reduces_S8x8x256_S8x8 : S8x8x256.Reduces [2] S8x8
  transposes_S8x8_p1_0_S8x8 : S8x8.Transposes [1, 0] S8x8
  inb_S8x8_S8x8_0_0 : ∀ a, (![0, 0] : Fin 2 → Nat) a + S8x8.size a ≤ S8x8.size a
  h_S8x8 : 0 < S8x8.numel
  transposes_S96x8_S8x96_1_0 : S96x8.Transposes [1, 0] S8x96
  transposes_S12x96_S96x12_1_0 : S12x96.Transposes [1, 0] S96x12
  bcast_S12_S1x12_1 : S12.BroadcastsInDim S1x12 (![1] : Fin 1 → Fin S1x12.rank)
  bcast_S1x12_S8x12_0_1 : S1x12.BroadcastsInDim S8x12 (![0, 1] : Fin 2 → Fin S8x12.rank)
  bcast_S_S8x12 : S_.BroadcastsInDim S8x12 (![] : Fin 0 → Fin S8x12.rank)
  transposes_S9x12_S12x9_1_0 : S9x12.Transposes [1, 0] S12x9
  bcast_S9_S1x9_1 : S9.BroadcastsInDim S1x9 (![1] : Fin 1 → Fin S1x9.rank)
  bcast_S1x9_S8x9_0_1 : S1x9.BroadcastsInDim S8x9 (![0, 1] : Fin 2 → Fin S8x9.rank)
  reducesTo_S8x9_S8_d1 : S8x9.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x9_0_1 : S8x1.BroadcastsInDim S8x9 (![0, 1] : Fin 2 → Fin S8x9.rank)
  inb_S8x2x256x256_S8x2x256x256_0_0_0_0 : ∀ a, (![0, 0, 0, 0] : Fin 4 → Nat) a + S8x2x256x256.size a ≤ S8x2x256x256.size a
  h_S8x2x256x256 : 0 < S8x2x256x256.numel
  slices_S8x2x256x256_o0_0_0_0_S8x2x255x256 : S8x2x256x256.Slices ![0, 0, 0, 0] S8x2x255x256
  concatenates_S8x2x1x256_S8x2x255x256_S8x2x256x256_d2 : Shape.Concatenates [S8x2x1x256, S8x2x255x256] S8x2x256x256 2
  slices_S8x2x256x256_o0_0_0_0_S8x2x256x255 : S8x2x256x256.Slices ![0, 0, 0, 0] S8x2x256x255
  concatenates_S8x2x256x1_S8x2x256x255_S8x2x256x256_d3 : Shape.Concatenates [S8x2x256x1, S8x2x256x255] S8x2x256x256 3
  inb_S8x9_S8x1_0_0 : ∀ a, (![0, 0] : Fin 2 → Nat) a + S8x1.size a ≤ S8x9.size a
  h_S8x1 : 0 < S8x1.numel
  shapeCasts_S8x1_S8 : S8x1.ShapeCasts S8
  shapeCasts_S8_S8x1x1x1 : S8.ShapeCasts S8x1x1x1
  shapeCasts_S8x2x256x256_S8x2x256x256 : S8x2x256x256.ShapeCasts S8x2x256x256
  broadcasts_S8x1x1x1_S8x2x256x256 : S8x1x1x1.Broadcasts S8x2x256x256
  inb_S8x9_S8x1_0_1 : ∀ a, (![0, 1] : Fin 2 → Nat) a + S8x1.size a ≤ S8x9.size a
  slices_S8x2x256x256_o0_0_0_1_S8x2x256x255 : S8x2x256x256.Slices ![0, 0, 0, 1] S8x2x256x255
  concatenates_S8x2x256x255_S8x2x256x1_S8x2x256x256_d3 : Shape.Concatenates [S8x2x256x255, S8x2x256x1] S8x2x256x256 3
  inb_S8x9_S8x1_0_2 : ∀ a, (![0, 2] : Fin 2 → Nat) a + S8x1.size a ≤ S8x9.size a
  inb_S8x9_S8x1_0_3 : ∀ a, (![0, 3] : Fin 2 → Nat) a + S8x1.size a ≤ S8x9.size a
  inb_S8x9_S8x1_0_4 : ∀ a, (![0, 4] : Fin 2 → Nat) a + S8x1.size a ≤ S8x9.size a
  inb_S8x9_S8x1_0_5 : ∀ a, (![0, 5] : Fin 2 → Nat) a + S8x1.size a ≤ S8x9.size a
  slices_S8x2x256x256_o0_0_1_0_S8x2x255x256 : S8x2x256x256.Slices ![0, 0, 1, 0] S8x2x255x256
  concatenates_S8x2x255x256_S8x2x1x256_S8x2x256x256_d2 : Shape.Concatenates [S8x2x255x256, S8x2x1x256] S8x2x256x256 2
  inb_S8x9_S8x1_0_6 : ∀ a, (![0, 6] : Fin 2 → Nat) a + S8x1.size a ≤ S8x9.size a
  inb_S8x9_S8x1_0_7 : ∀ a, (![0, 7] : Fin 2 → Nat) a + S8x1.size a ≤ S8x9.size a
  inb_S8x9_S8x1_0_8 : ∀ a, (![0, 8] : Fin 2 → Nat) a + S8x1.size a ≤ S8x9.size a
  dot_S8x96_S96x12_S8x12_1_0_0_1_n_n_wf : DotDims.WF S8x96 S96x12 S8x12 [1] [0] [0] [1] [] []
  dot_S8x12_S12x9_S8x9_1_0_0_1_n_n_wf : DotDims.WF S8x12 S12x9 S8x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8x256x256.size a ≤ S8x96x256x256.size a
  hwx0_0 : ∀ i : grid0.Coords, EltTy.bits .f32 = 32 ∨ (Rect.block (s := S8x96x256x256) S8x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8.size a ≤ S96x8.size a
  hwx0_1 : ∀ i : grid0.Coords, EltTy.bits .f32 = 32 ∨ (Rect.block (s := S96x8) S8x8.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x9.size a ≤ S8x9.size a
  hwx1_0 : ∀ i : grid1.Coords, EltTy.bits .f32 = 32 ∨ (Rect.block (s := S8x9) S8x9.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x2x256x256.size a ≤ S8x96x256x256.size a
  hwx1_1 : ∀ i : grid1.Coords, EltTy.bits .f32 = 32 ∨ (Rect.block (s := S8x96x256x256) S8x2x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x2x256x256.size a ≤ S8x96x256x256.size a
  hwx1_2 : ∀ i : grid1.Coords, EltTy.bits .f32 = 32 ∨ (Rect.block (s := S8x96x256x256) S8x2x256x256.size (cc1_transform_2 i) (hinb1_2 i)).WholeWords (EltTy.packing .f32)

variable [Facts₀]

def dot_S8x96_S96x12_S8x12_1_0_0_1_n_n : DotDims S8x96 S96x12 S8x12 where
  lhsContracting := [1]
  rhsContracting := [0]
  lhsNonContracting := [0]
  rhsNonContracting := [1]
  lhsBatch := []
  rhsBatch := []
  wf := dot_S8x96_S96x12_S8x12_1_0_0_1_n_n_wf
def dot_S8x12_S12x9_S8x9_1_0_0_1_n_n : DotDims S8x12 S12x9 S8x9 where
  lhsContracting := [1]
  rhsContracting := [0]
  lhsNonContracting := [0]
  rhsNonContracting := [1]
  lhsBatch := []
  rhsBatch := []
  wf := dot_S8x12_S12x9_S8x9_1_0_0_1_n_n_wf

abbrev win0_0 : Pipeline.Window sig grid0 :=
  Pipeline.Window.ofSpec (Memref.whole main_arg0) S8x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x8.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v23) S8x9.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x2x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8x2x256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x96x256x256 : Shape := ⟨4, ![8, 96, 256, 256]⟩
abbrev S12x96 : Shape := ⟨2, ![12, 96]⟩
abbrev S12 : Shape := ⟨1, ![12]⟩
abbrev S9x12 : Shape := ⟨2, ![9, 12]⟩
abbrev S9 : Shape := ⟨1, ![9]⟩
abbrev S_ : Shape := ⟨0, ![]⟩
abbrev S8x96 : Shape := ⟨2, ![8, 96]⟩
abbrev S96x12 : Shape := ⟨2, ![96, 12]⟩
abbrev S8x12 : Shape := ⟨2, ![8, 12]⟩
abbrev S1x12 : Shape := ⟨2, ![1, 12]⟩
abbrev S12x9 : Shape := ⟨2, ![12, 9]⟩
abbrev S8x9 : Shape := ⟨2, ![8, 9]⟩
abbrev S1x9 : Shape := ⟨2, ![1, 9]⟩
abbrev S8 : Shape := ⟨1, ![8]⟩
abbrev S8x1 : Shape := ⟨2, ![8, 1]⟩
abbrev S8x96x258x258 : Shape := ⟨4, ![8, 96, 258, 258]⟩
abbrev S8x1x1x1 : Shape := ⟨4, ![8, 1, 1, 1]⟩

abbrev nBuf : Space → Nat
  | .hbm => 105
  | .vmem => 0
  | .smem => 0
  | _ => 0

abbrev bufTy : (tb : Table) → Fin (tcTables nBuf tb) → BufTy
  | .hbm, ⟨0, _⟩ => ⟨S8x96x256x256, .f32⟩
  | .hbm, ⟨1, _⟩ => ⟨S12x96, .f32⟩
  | .hbm, ⟨2, _⟩ => ⟨S12, .f32⟩
  | .hbm, ⟨3, _⟩ => ⟨S9x12, .f32⟩
  | .hbm, ⟨4, _⟩ => ⟨S9, .f32⟩
  | .hbm, ⟨5, _⟩ => ⟨S_, .f32⟩
  | .hbm, ⟨6, _⟩ => ⟨S8x96, .f32⟩
  | .hbm, ⟨7, _⟩ => ⟨S_, .f32⟩
  | .hbm, ⟨8, _⟩ => ⟨S8x96, .f32⟩
  | .hbm, ⟨9, _⟩ => ⟨S8x96, .f32⟩
  | .hbm, ⟨10, _⟩ => ⟨S96x12, .f32⟩
  | .hbm, ⟨11, _⟩ => ⟨S8x12, .f32⟩
  | .hbm, ⟨12, _⟩ => ⟨S1x12, .f32⟩
  | .hbm, ⟨13, _⟩ => ⟨S8x12, .f32⟩
  | .hbm, ⟨14, _⟩ => ⟨S8x12, .f32⟩
  | .hbm, ⟨15, _⟩ => ⟨S_, .f32⟩
  | .hbm, ⟨16, _⟩ => ⟨S8x12, .f32⟩
  | .hbm, ⟨17, _⟩ => ⟨S8x12, .f32⟩
  | .hbm, ⟨18, _⟩ => ⟨S12x9, .f32⟩
  | .hbm, ⟨19, _⟩ => ⟨S8x9, .f32⟩
  | .hbm, ⟨20, _⟩ => ⟨S1x9, .f32⟩
  | .hbm, ⟨21, _⟩ => ⟨S8x9, .f32⟩
  | .hbm, ⟨22, _⟩ => ⟨S8x9, .f32⟩
  | .hbm, ⟨23, _⟩ => ⟨S_, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S8x1, .f32⟩
  | .hbm, ⟨29, _⟩ => ⟨S8x9, .f32⟩
  | .hbm, ⟨30, _⟩ => ⟨S8x9, .f32⟩
  | .hbm, ⟨31, _⟩ => ⟨S8x9, .f32⟩
  | .hbm, ⟨32, _⟩ => ⟨S_, .f32⟩
  | .hbm, ⟨33, _⟩ => ⟨S8, .f32⟩
  | .hbm, ⟨34, _⟩ => ⟨S8x1, .f32⟩
  | .hbm, ⟨35, _⟩ => ⟨S8x9, .f32⟩
  | .hbm, ⟨36, _⟩ => ⟨S8x9, .f32⟩
  | .hbm, ⟨37, _⟩ => ⟨S_, .i32⟩
  | .hbm, ⟨38, _⟩ => ⟨S_, .f32⟩
  | .hbm, ⟨39, _⟩ => ⟨S8x96x258x258, .f32⟩
  | .hbm, ⟨40, _⟩ => ⟨S_, .f32⟩
  | .hbm, ⟨41, _⟩ => ⟨S8x96x256x256, .f32⟩
  | .hbm, ⟨42, _⟩ => ⟨S8x1, .f32⟩
  | .hbm, ⟨43, _⟩ => ⟨S8, .f32⟩
  | .hbm, ⟨44, _⟩ => ⟨S8x1x1x1, .f32⟩
  | .hbm, ⟨45, _⟩ => ⟨S8x96x256x256, .f32⟩
  | .hbm, ⟨46, _⟩ => ⟨S8x96x256x256, .f32⟩
  | .hbm, ⟨47, _⟩ => ⟨S8x96x256x256, .f32⟩
  | .hbm, ⟨48, _⟩ => ⟨S8x96x256x256, .f32⟩
  | .hbm, ⟨49, _⟩ => ⟨S8x1, .f32⟩
  | .hbm, ⟨50, _⟩ => ⟨S8, .f32⟩
  | .hbm, ⟨51, _⟩ => ⟨S8x1x1x1, .f32⟩
  | .hbm, ⟨52, _⟩ => ⟨S8x96x256x256, .f32⟩
  | .hbm, ⟨53, _⟩ => ⟨S8x96x256x256, .f32⟩
  | .hbm, ⟨54, _⟩ => ⟨S8x96x256x256, .f32⟩
  | .hbm, ⟨55, _⟩ => ⟨S8x96x256x256, .f32⟩
  | .hbm, ⟨56, _⟩ => ⟨S8x1, .f32⟩
  | .hbm, ⟨57, _⟩ => ⟨S8, .f32⟩
  | .hbm, ⟨58, _⟩ => ⟨S8x1x1x1, .f32⟩
  | .hbm, ⟨59, _⟩ => ⟨S8x96x256x256, .f32⟩
  | .hbm, ⟨60, _⟩ => ⟨S8x96x256x256, .f32⟩
  | .hbm, ⟨61, _⟩ => ⟨S8x96x256x256, .f32⟩
  | .hbm, ⟨62, _⟩ => ⟨S8x96x256x256, .f32⟩
  | .hbm, ⟨63, _⟩ => ⟨S8x1, .f32⟩
  | .hbm, ⟨64, _⟩ => ⟨S8, .f32⟩
  | .hbm, ⟨65, _⟩ => ⟨S8x1x1x1, .f32⟩
  | .hbm, ⟨66, _⟩ => ⟨S8x96x256x256, .f32⟩
  | .hbm, ⟨67, _⟩ => ⟨S8x96x256x256, .f32⟩
  | .hbm, ⟨68, _⟩ => ⟨S8x96x256x256, .f32⟩
  | .hbm, ⟨69, _⟩ => ⟨S8x96x256x256, .f32⟩
  | .hbm, ⟨70, _⟩ => ⟨S8x1, .f32⟩
  | .hbm, ⟨71, _⟩ => ⟨S8, .f32⟩
  | .hbm, ⟨72, _⟩ => ⟨S8x1x1x1, .f32⟩
  | .hbm, ⟨73, _⟩ => ⟨S8x96x256x256, .f32⟩
  | .hbm, ⟨74, _⟩ => ⟨S8x96x256x256, .f32⟩
  | .hbm, ⟨75, _⟩ => ⟨S8x96x256x256, .f32⟩
  | .hbm, ⟨76, _⟩ => ⟨S8x96x256x256, .f32⟩
  | .hbm, ⟨77, _⟩ => ⟨S8x1, .f32⟩
  | .hbm, ⟨78, _⟩ => ⟨S8, .f32⟩
  | .hbm, ⟨79, _⟩ => ⟨S8x1x1x1, .f32⟩
  | .hbm, ⟨80, _⟩ => ⟨S8x96x256x256, .f32⟩
  | .hbm, ⟨81, _⟩ => ⟨S8x96x256x256, .f32⟩
  | .hbm, ⟨82, _⟩ => ⟨S8x96x256x256, .f32⟩
  | .hbm, ⟨83, _⟩ => ⟨S8x96x256x256, .f32⟩
  | .hbm, ⟨84, _⟩ => ⟨S8x1, .f32⟩
  | .hbm, ⟨85, _⟩ => ⟨S8, .f32⟩
  | .hbm, ⟨86, _⟩ => ⟨S8x1x1x1, .f32⟩
  | .hbm, ⟨87, _⟩ => ⟨S8x96x256x256, .f32⟩
  | .hbm, ⟨88, _⟩ => ⟨S8x96x256x256, .f32⟩
  | .hbm, ⟨89, _⟩ => ⟨S8x96x256x256, .f32⟩
  | .hbm, ⟨90, _⟩ => ⟨S8x96x256x256, .f32⟩
  | .hbm, ⟨91, _⟩ => ⟨S8x1, .f32⟩
  | .hbm, ⟨92, _⟩ => ⟨S8, .f32⟩
  | .hbm, ⟨93, _⟩ => ⟨S8x1x1x1, .f32⟩
  | .hbm, ⟨94, _⟩ => ⟨S8x96x256x256, .f32⟩
  | .hbm, ⟨95, _⟩ => ⟨S8x96x256x256, .f32⟩
  | .hbm, ⟨96, _⟩ => ⟨S8x96x256x256, .f32⟩
  | .hbm, ⟨97, _⟩ => ⟨S8x96x256x256, .f32⟩
  | .hbm, ⟨98, _⟩ => ⟨S8x1, .f32⟩
  | .hbm, ⟨99, _⟩ => ⟨S8, .f32⟩
  | .hbm, ⟨100, _⟩ => ⟨S8x1x1x1, .f32⟩
  | .hbm, ⟨101, _⟩ => ⟨S8x96x256x256, .f32⟩
  | .hbm, ⟨102, _⟩ => ⟨S8x96x256x256, .f32⟩
  | .hbm, ⟨103, _⟩ => ⟨S8x96x256x256, .f32⟩
  | .hbm, ⟨104, _⟩ => ⟨S8x96x256x256, .f32⟩
  | _, _ => ⟨S8x96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call0_cst : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c : Ref sig .tc := ⟨.hbm, 37, rfl⟩
abbrev main_call1_v0 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩

abbrev nD : Nat := 1
abbrev τ : Topo := Topo.v7x

variable {F : FTy → Type} [FloatOps F]

class Facts₀ : Prop where
  reducesTo_S8x96x256x256_S8x96_d2_3 : S8x96x256x256.ReducesTo [2, 3] S8x96
  h_S_ : 0 < S_.numel
  bcast_S_S8x96 : S_.BroadcastsInDim S8x96 (![] : Fin 0 → Fin S8x96.rank)
  transposes_S12x96_S96x12_1_0 : S12x96.Transposes [1, 0] S96x12
  bcast_S12_S1x12_1 : S12.BroadcastsInDim S1x12 (![1] : Fin 1 → Fin S1x12.rank)
  bcast_S1x12_S8x12_0_1 : S1x12.BroadcastsInDim S8x12 (![0, 1] : Fin 2 → Fin S8x12.rank)
  bcast_S_S8x12 : S_.BroadcastsInDim S8x12 (![] : Fin 0 → Fin S8x12.rank)
  transposes_S9x12_S12x9_1_0 : S9x12.Transposes [1, 0] S12x9
  bcast_S9_S1x9_1 : S9.BroadcastsInDim S1x9 (![1] : Fin 1 → Fin S1x9.rank)
  bcast_S1x9_S8x9_0_1 : S1x9.BroadcastsInDim S8x9 (![0, 1] : Fin 2 → Fin S8x9.rank)
  reducesTo_S8x9_S8_d1 : S8x9.ReducesTo [1] S8
  bcast_S_S8 : S_.BroadcastsInDim S8 (![] : Fin 0 → Fin S8.rank)
  bcast_S8_S8x1_0 : S8.BroadcastsInDim S8x1 (![0] : Fin 1 → Fin S8x1.rank)
  bcast_S8x1_S8x9_0_1 : S8x1.BroadcastsInDim S8x9 (![0, 1] : Fin 2 → Fin S8x9.rank)
  pads_S8x96x256x256_S8x96x258x258_000_000_110_110 : S8x96x256x256.Pads (![0, 0, 1, 1] : Fin 4 → Nat) ![0, 0, 1, 1] ![0, 0, 0, 0] S8x96x258x258
  bcast_S_S8x96x256x256 : S_.BroadcastsInDim S8x96x256x256 (![] : Fin 0 → Fin S8x96x256x256.rank)
  slices_S8x9_S8x1_0_0 : S8x9.Slices ![0, 0] S8x1
  shapeCasts_S8x1_S8 : S8x1.ShapeCasts S8
  bcast_S8_S8x1x1x1_0 : S8.BroadcastsInDim S8x1x1x1 (![0] : Fin 1 → Fin S8x1x1x1.rank)
  slices_S8x96x258x258_S8x96x256x256_0_0_0_0 : S8x96x258x258.Slices ![0, 0, 0, 0] S8x96x256x256
  bcast_S8x1x1x1_S8x96x256x256_0_1_2_3 : S8x1x1x1.BroadcastsInDim S8x96x256x256 (![0, 1, 2, 3] : Fin 4 → Fin S8x96x256x256.rank)
  slices_S8x9_S8x1_0_1 : S8x9.Slices ![0, 1] S8x1
  slices_S8x96x258x258_S8x96x256x256_0_0_0_1 : S8x96x258x258.Slices ![0, 0, 0, 1] S8x96x256x256
  slices_S8x9_S8x1_0_2 : S8x9.Slices ![0, 2] S8x1
  slices_S8x96x258x258_S8x96x256x256_0_0_0_2 : S8x96x258x258.Slices ![0, 0, 0, 2] S8x96x256x256
  slices_S8x9_S8x1_0_3 : S8x9.Slices ![0, 3] S8x1
  slices_S8x96x258x258_S8x96x256x256_0_0_1_0 : S8x96x258x258.Slices ![0, 0, 1, 0] S8x96x256x256
  slices_S8x9_S8x1_0_4 : S8x9.Slices ![0, 4] S8x1
  slices_S8x96x258x258_S8x96x256x256_0_0_1_1 : S8x96x258x258.Slices ![0, 0, 1, 1] S8x96x256x256
  slices_S8x9_S8x1_0_5 : S8x9.Slices ![0, 5] S8x1
  slices_S8x96x258x258_S8x96x256x256_0_0_1_2 : S8x96x258x258.Slices ![0, 0, 1, 2] S8x96x256x256
  slices_S8x9_S8x1_0_6 : S8x9.Slices ![0, 6] S8x1
  slices_S8x96x258x258_S8x96x256x256_0_0_2_0 : S8x96x258x258.Slices ![0, 0, 2, 0] S8x96x256x256
  slices_S8x9_S8x1_0_7 : S8x9.Slices ![0, 7] S8x1
  slices_S8x96x258x258_S8x96x256x256_0_0_2_1 : S8x96x258x258.Slices ![0, 0, 2, 1] S8x96x256x256
  slices_S8x9_S8x1_0_8 : S8x9.Slices ![0, 8] S8x1
  slices_S8x96x258x258_S8x96x256x256_0_0_2_2 : S8x96x258x258.Slices ![0, 0, 2, 2] S8x96x256x256
  dot_S8x96_S96x12_S8x12_1_0_0_1_n_n_wf : DotDims.WF S8x96 S96x12 S8x12 [1] [0] [0] [1] [] []
  dot_S8x12_S12x9_S8x9_1_0_0_1_n_n_wf : DotDims.WF S8x12 S12x9 S8x9 [1] [0] [0] [1] [] []

variable [Facts₀]

def dot_S8x96_S96x12_S8x12_1_0_0_1_n_n : DotDims S8x96 S96x12 S8x12 where
  lhsContracting := [1]
  rhsContracting := [0]
  lhsNonContracting := [0]
  rhsNonContracting := [1]
  lhsBatch := []
  rhsBatch := []
  wf := dot_S8x96_S96x12_S8x12_1_0_0_1_n_n_wf
def dot_S8x12_S12x9_S8x9_1_0_0_1_n_n : DotDims S8x12 S12x9 S8x9 where
  lhsContracting := [1]
  rhsContracting := [0]
  lhsNonContracting := [0]
  rhsNonContracting := [1]
  lhsBatch := []
  rhsBatch := []
  wf := dot_S8x12_S12x9_S8x9_1_0_0_1_n_n_wf

class Facts : Prop extends Facts₀ where

variable [Facts]
-- ==== Proof.Spec.lean ====
/-
  The mathematics both programs compute, stated once over literal shapes at the extended reals.

  Input `x : [8, 96, 256, 256]` (batch, channel, row, column).
  * `pool x` : [96, 8] — at (c, b) the sum over rows of the sums over columns of plane (b, c), times the
    constant 2⁻¹⁶ (the f32 word `0x37800000`): the per-plane mean, laid out channel-major. `poolB` is the same on a
    block of eight channels, [8, 8, 256, 256] to [8, 8].
  * `padded x b c hp wp` — plane (b, c) with a border of zeros one entry wide, read at padded coordinates
    `hp, wp ∈ [0, 258)`: the entry (hp - 1, wp - 1) of the plane when both lie in [1, 256], else 0.
  * `conv kw x` : [8, 96, 256, 256] — at (b, c, h, w) the nine taps (di, dj) ∈ {0,1,2}² of the padded plane at
    (h + di, w + dj), each weighted by `kw (b, 3·di + dj)`, added left to right onto 0 in row-major tap order.
    `convB`, over `paddedB`, is the same on a block of two channels, [8, 2, 256, 256]: a tap never leaves its
    plane, so the block of the array's result is the result of the array's block.
-/
import Idealize.ShloMosaic.PureOps.Ideal
import Idealize.ShloMosaic.Lib.ValueIdx

noncomputable section

namespace Cert.DynConv

open Idealize.ShloMosaic Idealize.ShloMosaic.ValueIdx

/-- The input and output arrays' shape. -/
abbrev SX : Shape := ⟨4, ![8, 96, 256, 256]⟩
/-- A two-channel block of it. -/
abbrev SXB : Shape := ⟨4, ![8, 2, 256, 256]⟩
/-- An eight-channel block of it. -/
abbrev SXP : Shape := ⟨4, ![8, 8, 256, 256]⟩
/-- The per-batch tap weights' shape. -/
abbrev SKW : Shape := ⟨2, ![8, 9]⟩
/-- The channel-major plane means' shape, and a block of eight channels of it. -/
abbrev SPT : Shape := ⟨2, ![96, 8]⟩
abbrev SPB : Shape := ⟨2, ![8, 8]⟩

/-- The plane means, channel-major: the iterated sum times 2⁻¹⁶. -/
def pool (x : SX.Idx → EReal) : SPT.Idx → EReal := fun j =>
  (∑ h : Fin 256, ∑ w : Fin 256, x (ix4 (j 1) (j 0) h w)) * Ideal.ofBits .f32 0x37800000#32

/-- The same on an eight-channel block. -/
def poolB (x : SXP.Idx → EReal) : SPB.Idx → EReal := fun j =>
  (∑ h : Fin 256, ∑ w : Fin 256, x (ix4 (j 1) (j 0) h w)) * Ideal.ofBits .f32 0x37800000#32

/-- Plane (b, c) of the array inside a one-entry border of zeros, at padded coordinates. -/
def padded (x : SX.Idx → EReal) (b : Fin 8) (c : Fin 96) (hp wp : ℕ) : EReal :=
  if hh : 1 ≤ hp ∧ hp ≤ 256 ∧ 1 ≤ wp ∧ wp ≤ 256 then
    x (ix4 b c ⟨hp - 1, by omega⟩ ⟨wp - 1, by omega⟩)
  else 0

/-- The nine-tap weighted sum, taps in row-major order, accumulated from 0 on the left. -/
def conv (kw : SKW.Idx → EReal) (x : SX.Idx → EReal) : SX.Idx → EReal := fun i =>
  (((((((((0 + kw (ix2 (i 0) 0) * padded x (i 0) (i 1) ((i 2).val + 0) ((i 3).val + 0))
    + kw (ix2 (i 0) 1) * padded x (i 0) (i 1) ((i 2).val + 0) ((i 3).val + 1))
    + kw (ix2 (i 0) 2) * padded x (i 0) (i 1) ((i 2).val + 0) ((i 3).val + 2))
    + kw (ix2 (i 0) 3) * padded x (i 0) (i 1) ((i 2).val + 1) ((i 3).val + 0))
    + kw (ix2 (i 0) 4) * padded x (i 0) (i 1) ((i 2).val + 1) ((i 3).val + 1))
    + kw (ix2 (i 0) 5) * padded x (i 0) (i 1) ((i 2).val + 1) ((i 3).val + 2))
    + kw (ix2 (i 0) 6) * padded x (i 0) (i 1) ((i 2).val + 2) ((i 3).val + 0))
    + kw (ix2 (i 0) 7) * padded x (i 0) (i 1) ((i 2).val + 2) ((i 3).val + 1))
    + kw (ix2 (i 0) 8) * padded x (i 0) (i 1) ((i 2).val + 2) ((i 3).val + 2))

/-- Inside the plane the padded read is the plane's entry. -/
theorem padded_inside (x : SX.Idx → EReal) (b : Fin 8) (c : Fin 96) (hp wp : ℕ) (h : Fin 256) (w : Fin 256)
    (hh : hp = h.val + 1) (hw : wp = w.val + 1) : padded x b c hp wp = x (ix4 b c h w) := by
  subst hh hw
  unfold padded
  rw [dif_pos ⟨by omega, by omega, by omega, by omega⟩]
  rfl

/-- On the border the padded read is zero. -/
theorem padded_border (x : SX.Idx → EReal) (b : Fin 8) (c : Fin 96) (hp wp : ℕ)
    (hb : hp = 0 ∨ 257 ≤ hp ∨ wp = 0 ∨ 257 ≤ wp) : padded x b c hp wp = 0 := by
  unfold padded
  rw [dif_neg (by omega)]

/-- Plane (b, c) of a two-channel block inside a one-entry border of zeros, at padded coordinates. -/
def paddedB (x : SXB.Idx → EReal) (b : Fin 8) (c : Fin 2) (hp wp : ℕ) : EReal :=
  if hh : 1 ≤ hp ∧ hp ≤ 256 ∧ 1 ≤ wp ∧ wp ≤ 256 then
    x (ix4 b c ⟨hp - 1, by omega⟩ ⟨wp - 1, by omega⟩)
  else 0

/-- The nine-tap weighted sum on a two-channel block, taps in row-major order, accumulated from 0 on the left. -/
def convB (kw : SKW.Idx → EReal) (x : SXB.Idx → EReal) : SXB.Idx → EReal := fun i =>
  (((((((((0 + kw (ix2 (i 0) 0) * paddedB x (i 0) (i 1) ((i 2).val + 0) ((i 3).val + 0))
    + kw (ix2 (i 0) 1) * paddedB x (i 0) (i 1) ((i 2).val + 0) ((i 3).val + 1))
    + kw (ix2 (i 0) 2) * paddedB x (i 0) (i 1) ((i 2).val + 0) ((i 3).val + 2))
    + kw (ix2 (i 0) 3) * paddedB x (i 0) (i 1) ((i 2).val + 1) ((i 3).val + 0))
    + kw (ix2 (i 0) 4) * paddedB x (i 0) (i 1) ((i 2).val + 1) ((i 3).val + 1))
    + kw (ix2 (i 0) 5) * paddedB x (i 0) (i 1) ((i 2).val + 1) ((i 3).val + 2))
    + kw (ix2 (i 0) 6) * paddedB x (i 0) (i 1) ((i 2).val + 2) ((i 3).val + 0))
    + kw (ix2 (i 0) 7) * paddedB x (i 0) (i 1) ((i 2).val + 2) ((i 3).val + 1))
    + kw (ix2 (i 0) 8) * paddedB x (i 0) (i 1) ((i 2).val + 2) ((i 3).val + 2))

/-- Inside the plane the padded read is the plane's entry. -/
theorem paddedB_inside (x : SXB.Idx → EReal) (b : Fin 8) (c : Fin 2) (hp wp : ℕ) (h : Fin 256) (w : Fin 256)
    (hh : hp = h.val + 1) (hw : wp = w.val + 1) : paddedB x b c hp wp = x (ix4 b c h w) := by
  subst hh hw
  unfold paddedB
  rw [dif_pos ⟨by omega, by omega, by omega, by omega⟩]
  rfl

/-- On the border the padded read is zero. -/
theorem paddedB_border (x : SXB.Idx → EReal) (b : Fin 8) (c : Fin 2) (hp wp : ℕ)
    (hb : hp = 0 ∨ 257 ≤ hp ∨ wp = 0 ∨ 257 ≤ wp) : paddedB x b c hp wp = 0 := by
  unfold paddedB
  rw [dif_neg (by omega)]

/-- The word `0x37800000` denotes 2⁻¹⁶ = 1/65536. -/
theorem ofBits_inv65536 : Ideal.ofBits .f32 0x37800000#32 = ((1 / 65536 : ℝ) : EReal) := by
  simp [Ideal.ofBits, Ideal.ieee, -EReal.coe_mul]; norm_num

/-- The word `0x47800000` denotes 65536. -/
theorem ofBits_65536 : Ideal.ofBits .f32 0x47800000#32 = ((65536 : ℝ) : EReal) := by
  simp [Ideal.ofBits, Ideal.ieee, -EReal.coe_mul]; norm_num

/-- Dividing by the word for 65536 is multiplying by the word for 2⁻¹⁶, on every extended real. -/
theorem div_65536 (y : EReal) :
    Ideal.div y (Ideal.ofBits .f32 0x47800000#32) = y * Ideal.ofBits .f32 0x37800000#32 := by
  rw [ofBits_65536, ofBits_inv65536, Ideal.div_coe (by norm_num : (65536 : ℝ) ≠ 0)]

end Cert.DynConv

end
-- ==== Proof.Attention.lean ====
/-
  The host stretch between the two regions: from the plane means (batch-major, [8, 96]) the tap weights [8, 9] —
  a dense layer, the rectifier, a second dense layer, and the softmax over the nine taps (maximum subtracted,
  exponential, division by the row's sum). Both programs spell it with the same operations in the same order, so it is
  kept as ONE function `att` of the means and the four parameter arrays and never opened.
-/
import proofs.«131768_j87892210745472_1_alg».proof.Proof.Gen.KernelIdeal.Frame
import proofs.«131768_j87892210745472_1_alg».proof.Proof.Gen.ReferenceIdeal.Read

set_option maxRecDepth 16384

noncomputable section

namespace Cert.KernelIdeal.Att

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- The tap weights from the plane means `p` and the parameters: softmax (relu (p · w1ᵀ + b1) · w2ᵀ + b2) along the taps. -/
def att (p : Vec F S8x96 .f32) (w1 : Vec F S12x96 .f32) (b1 : Vec F S12 .f32) (w2 : Vec F S9x12 .f32) (b2 : Vec F S9 .f32) :
    Vec F S8x9 .f32 :=
  have hid : Vec F S8x12 .f32 :=
    maximumf
      (addf (Host.dotGeneral dot_S8x96_S96x12_S8x12_1_0_0_1_n_n none p (transpose S96x12 [1, 0] w1 transposes_S12x96_S96x12_1_0))
        (broadcastInDim S8x12 ![0, 1] bcast_S1x12_S8x12_0_1 (broadcastInDim S1x12 ![1] bcast_S12_S1x12_1 b1)))
      (broadcastInDim S8x12 ![] bcast_S_S8x12 (constant S_ .f32 0x00000000#32))
  have logits : Vec F S8x9 .f32 :=
    addf (Host.dotGeneral dot_S8x12_S12x9_S8x9_1_0_0_1_n_n none hid (transpose S12x9 [1, 0] w2 transposes_S9x12_S12x9_1_0))
      (broadcastInDim S8x9 ![0, 1] bcast_S1x9_S8x9_0_1 (broadcastInDim S1x9 ![1] bcast_S9_S1x9_1 b2))
  have top : Vec F S8 .f32 :=
    maximumf (broadcastInDim S8 ![] bcast_S_S8 (constant S_ .f32 0xFF800000#32))
      (Host.reduce FloatOps.maximumf logits (constant S_ .f32 0xFF800000#32) reducesTo_S8x9_S8_d1 h_S_)
  have e : Vec F S8x9 .f32 :=
    Host.exp (subf logits (broadcastInDim S8x9 ![0, 1] bcast_S8x1_S8x9_0_1 (broadcastInDim S8x1 ![0] bcast_S8_S8x1_0 top)))
  Host.divf e
    (broadcastInDim S8x9 ![0, 1] bcast_S8x1_S8x9_0_1
      (broadcastInDim S8x1 ![0] bcast_S8_S8x1_0 (Host.reduceAdd e (constant S_ .f32 0x00000000#32) reducesTo_S8x9_S8_d1 h_S_)))

variable (m : (ℓ : Loc nD τ sig) → Buf (Elt F) ℓ) (ρ : Dev nD → PrngReg)

/-- At region 1's entry the weights buffer holds `att` of the transposed means region 0 left and of the parameter
    buffers as region 0 left them. -/
theorem entry_weights (c : Dev nD) :
    W4 m ρ c (Proc.devRef .tc main_v23)
      = att (transpose S8x96 [1, 0] (W1 m ρ c (Proc.devRef .tc main_v0)) transposes_S96x8_S8x96_1_0)
          (W1 m ρ c (Proc.devRef .tc main_arg1)) (W1 m ρ c (Proc.devRef .tc main_arg2))
          (W1 m ρ c (Proc.devRef .tc main_arg3)) (W1 m ρ c (Proc.devRef .tc main_arg4)) := by
  show StableHlo.after hostOps1_2 (StableHlo.after hostOps1_1 (StableHlo.after hostOps1 (W1 m ρ c))) (Proc.devRef .tc main_v23) = _
  after_results_simp
  rfl

/-- Region 1 finds the input array as launched: region 0 only reads it and no host operation writes it. -/
theorem entry_input (c : Dev nD) :
    W4 m ρ c (Proc.devRef .tc main_arg0) = m ((c : Thread nD τ).loc main_arg0) :=
  ((W5_arr m ρ c 1).trans (((dat1 (V4 m ρ) c).arrAt_in 1 rfl _).trans (A_eq1 (V4 m ρ) c 1))).symm.trans (W5_main_arg0 m ρ c)

/-- Region 0 leaves the four parameter arrays as launched. -/
theorem exit0_arg1 (c : Dev nD) : W1 m ρ c (Proc.devRef .tc main_arg1) = m ((c : Thread nD τ).loc main_arg1) :=
  W1_of_ne m ρ c main_arg1 (by decide)
theorem exit0_arg2 (c : Dev nD) : W1 m ρ c (Proc.devRef .tc main_arg2) = m ((c : Thread nD τ).loc main_arg2) :=
  W1_of_ne m ρ c main_arg2 (by decide)
theorem exit0_arg3 (c : Dev nD) : W1 m ρ c (Proc.devRef .tc main_arg3) = m ((c : Thread nD τ).loc main_arg3) :=
  W1_of_ne m ρ c main_arg3 (by decide)
theorem exit0_arg4 (c : Dev nD) : W1 m ρ c (Proc.devRef .tc main_arg4) = m ((c : Thread nD τ).loc main_arg4) :=
  W1_of_ne m ρ c main_arg4 (by decide)

/-- The reference's weights stage is the same function of ITS means stage and the parameters: the same operations in the
    same order, spelt in the reference's own namespace. -/
theorem ref_weights (x0 : (⟨Cert.ReferenceIdeal.S8x96x256x256, .f32⟩ : BufTy).Contents (Elt F)) (x1 : (⟨Cert.ReferenceIdeal.S12x96, .f32⟩ : BufTy).Contents (Elt F))
    (x2 : (⟨Cert.ReferenceIdeal.S12, .f32⟩ : BufTy).Contents (Elt F)) (x3 : (⟨Cert.ReferenceIdeal.S9x12, .f32⟩ : BufTy).Contents (Elt F))
    (x4 : (⟨Cert.ReferenceIdeal.S9, .f32⟩ : BufTy).Contents (Elt F)) :
    Cert.ReferenceIdeal.Read.val_main_v24 (F := F) x0 x1 x2 x3 x4 = att (F := F) (Cert.ReferenceIdeal.Read.val_main_v2 (F := F) x0) x1 x2 x3 x4 := by
  rfl

end Cert.KernelIdeal.Att

end
-- ==== Proof.PoolBlocks.lean ====
/-
  Region 0 read as values: after the run of the first pipeline the channel-major means array holds `pool` of the
  input array the region found.
-/
import proofs.«131768_j87892210745472_1_alg».proof.Proof.Gen.KernelIdeal.Frame
import proofs.«131768_j87892210745472_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.PoolValue

open Idealize.ShloMosaic Idealize.ShloMosaic.TcCoe Idealize.SL.Sem
open Idealize.ShloMosaic.Pipeline (Dat Cfg Window)
open Idealize.ShloMosaic.ValueIdx
open Cert.KernelIdeal Cert.KernelIdeal.Gen

/-- The body's payload on a block of eight channels: at (channel, batch) the plane's rows' sums added, times 2⁻¹⁶. -/
theorem pay_eq (xb : Vec Ideal S8x8x256x256 .f32) :
    (k0_pay1 xb : S8x8.Idx → EReal) = Cert.DynConv.poolB xb := by
  funext j
  obtain ⟨c', b, rfl⟩ : ∃ (c' : Fin 8) (b : Fin 8), j = ix2 c' b := ⟨j 0, j 1, eq_ix2 j⟩
  unfold k0_pay1 Cert.DynConv.poolB
  show (transpose S8x8 [1, 0] _ transposes_S8x8_p1_0_S8x8 (ix2 c' b) : EReal) * Ideal.ofBits .f32 0x37800000#32 = _
  refine congrArg (· * Ideal.ofBits .f32 0x37800000#32) ?_
  refine (transpose_apply [1, 0] _ transposes_S8x8_p1_0_S8x8 (ix2 c' b) (ix2 b c') ?_).trans ?_
  · intro a
    match a with
    | ⟨0, _⟩ => rfl
    | ⟨1, _⟩ => rfl
  refine (Ideal.multiReduction_add_single _ _ reduces_S8x8x256_S8x8 (.inl rfl) rfl (ix2 b c')).trans ?_
  refine Finset.sum_congr rfl fun h _ => ?_
  refine (Ideal.multiReduction_add_single xb _ reduces_S8x8x256x256_S8x8x256 (.inl rfl) rfl _).trans ?_
  refine Finset.sum_congr rfl fun w _ => ?_
  refine congrArg xb (funext fun a => Fin.ext ?_)
  match a with
  | ⟨0, _⟩ => rfl
  | ⟨1, _⟩ => rfl
  | ⟨2, _⟩ => rfl
  | ⟨3, _⟩ => rfl

/-- The zero offsets of the body's whole-buffer accesses, spelt as constant functions. -/
theorem hz2 : (![0, 0] : Fin 2 → Nat) = fun _ => 0 := funext fun a => by fin_cases a <;> rfl
theorem hz4 : (![0, 0, 0, 0] : Fin 4 → Nat) = fun _ => 0 := funext fun a => by fin_cases a <;> rfl

/-- The means of a block of eight channels are the block's rows of the array's means: when the block `xb` is channels
    `8k … 8k + 7` of `x`, the block's means at (channel `c'`, batch `b`) are the array's at (channel `8k + c'`, batch `b`). -/
theorem poolB_of_block (x : S8x96x256x256.Idx → EReal) (xb : S8x8x256x256.Idx → EReal) (k : ℕ)
    (hxb : ∀ (b : Fin 8) (c' : Fin 8) (h w : Fin 256) (cc : Fin 96), cc.val = k * 8 + c'.val →
      xb (ix4 b c' h w) = x (ix4 b cc h w))
    (c' b : Fin 8) (cc : Fin 96) (hcc : cc.val = k * 8 + c'.val) :
    Cert.DynConv.poolB xb (ix2 c' b) = Cert.DynConv.pool x (ix2 cc b) := by
  unfold Cert.DynConv.poolB Cert.DynConv.pool
  refine congrArg (· * Ideal.ofBits .f32 0x37800000#32) ?_
  refine Finset.sum_congr rfl fun h _ => Finset.sum_congr rfl fun w _ => ?_
  exact hxb b c' h w cc hcc

/-- The printed index maps over the grid: the input's block index is (0, t, 0, 0), the output's (t, 0). -/
theorem idx_facts : ∀ t : Fin cfg0.N,
    win0_0.index t (0 : Fin 4) = 0 ∧ win0_0.index t (1 : Fin 4) = t.val ∧ win0_0.index t (2 : Fin 4) = 0
    ∧ win0_0.index t (3 : Fin 4) = 0 ∧ win0_1.index t (0 : Fin 2) = t.val ∧ win0_1.index t (1 : Fin 2) = 0 :=
  (by decide +kernel : ∀ t : Fin grid0.N, _)

/-- The same at any two indices that agree: row `8k + (j 0)` of the array's means, column `j 1`. -/
theorem poolB_of_block_idx (x : S8x96x256x256.Idx → EReal) (xb : S8x8x256x256.Idx → EReal) (k : ℕ)
    (hxb : ∀ (b : Fin 8) (c' : Fin 8) (h w : Fin 256) (cc : Fin 96), cc.val = k * 8 + c'.val →
      xb (ix4 b c' h w) = x (ix4 b cc h w))
    (j : S8x8.Idx) (i : S96x8.Idx) (h0 : (i 0).val = k * 8 + (j 0).val) (h1 : (i 1).val = (j 1).val) :
    Cert.DynConv.poolB xb j = Cert.DynConv.pool x i := by
  obtain ⟨c', b, rfl⟩ : ∃ (c' : Fin 8) (b : Fin 8), j = ix2 c' b := ⟨j 0, j 1, eq_ix2 j⟩
  obtain ⟨cc, bb, rfl⟩ : ∃ (cc : Fin 96) (bb : Fin 8), i = ix2 cc bb := ⟨i 0, i 1, eq_ix2 i⟩
  obtain rfl : bb = b := Fin.ext h1
  exact poolB_of_block x xb k hxb c' bb cc h0

variable (V : (c : Dev nD) → (b : Ref sig .tc) → Buf (Elt Ideal) ((c : Thread nD τ).loc b))

/-- What point `t` writes back is block `t` of the means of the array the region found. -/
theorem flushed_eq (c : Dev nD) (t : Fin cfg0.N) :
    (dat0 (F := Ideal) V c).flushed 1 t
      = ((cfg0.win 1).blk t).view.read (Elt Ideal) (Cert.DynConv.pool (V c main_arg0 : S8x96x256x256.Idx → EReal)) := by
  show (cfg0.win 1).cut (grid0.coords t) ((dat0 V c).after 1 t) = _
  rw [after0_1]
  unfold out0_1
  rw [View.canon_unit_zero hz2]
  simp only [View.ld_unit_zero (S := S8x8x256x256) hz4]
  rw [pay_eq]
  obtain ⟨e0, e1, e2, e3, e4, e5⟩ := idx_facts t
  funext j
  show Cert.DynConv.poolB (iblk0 V c 0 t) j = Cert.DynConv.pool (V c main_arg0) (((cfg0.win 1).blk t).view.emb j)
  refine poolB_of_block_idx (V c main_arg0) (iblk0 V c 0 t) t.val (fun b c' h w cc hcc => ?_) j
    (((cfg0.win 1).blk t).view.emb j) ?_ ?_
  · show (V c main_arg0 : S8x96x256x256.Idx → EReal) (((cfg0.win 0).blk t).view.emb (ix4 b c' h w))
      = (V c main_arg0 : S8x96x256x256.Idx → EReal) (ix4 b cc h w)
    refine congrArg (V c main_arg0 : S8x96x256x256.Idx → EReal) (funext fun a => Fin.ext ?_)
    match a with
    | ⟨0, _⟩ => show win0_0.index t (0 : Fin 4) * 8 + 1 * b.val = b.val; omega
    | ⟨1, _⟩ => show win0_0.index t (1 : Fin 4) * 8 + 1 * c'.val = cc.val; omega
    | ⟨2, _⟩ => show win0_0.index t (2 : Fin 4) * 256 + 1 * h.val = h.val; omega
    | ⟨3, _⟩ => show win0_0.index t (3 : Fin 4) * 256 + 1 * w.val = w.val; omega
  · show win0_1.index t (0 : Fin 2) * 8 + 1 * (j 0).val = t.val * 8 + (j 0).val
    omega
  · show win0_1.index t (1 : Fin 2) * 8 + 1 * (j 1).val = (j 1).val
    omega

/-- An index of the means array is in point `t`'s block iff each coordinate is in the block's range on its axis. -/
theorem mem_blk (t : Fin cfg0.N) (i : S96x8.Idx) :
    i ∈ ((cfg0.win 1).blk t).view.set ↔ ∀ a : Fin 2, win0_1.index t a * S8x8.size a ≤ (i a).val
      ∧ (i a).val < win0_1.index t a * S8x8.size a + S8x8.size a := by
  show i ∈ ((View.whole main_v0).slice (win0_1.rect t)).set ↔ _
  rw [View.set_slice_whole, Rect.mem_set_unit]
  exact Iff.rfl

/-- Every index of the means array lies in the block of the point its row's eighth names. -/
theorem cover (i : S96x8.Idx) :
    ∃ t : Fin cfg0.N, (cfg0.win 1).flush t = true ∧ i ∈ ((cfg0.win 1).blk t).view.set := by
  have hi0 : (i 0).val < 96 := (i 0).isLt
  have hi1 : (i 1).val < 8 := (i 1).isLt
  have hN : cfg0.N = 12 := N_0
  obtain ⟨t, ht⟩ : ∃ t : Fin cfg0.N, t.val = (i 0).val / 8 := ⟨⟨(i 0).val / 8, by omega⟩, rfl⟩
  refine ⟨t, flush0_1 t, ?_⟩
  rw [mem_blk]
  obtain ⟨e0, e1, e2, e3, e4, e5⟩ := idx_facts t
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 8 ≤ (i 1).val ∧ (i 1).val < win0_1.index t (1 : Fin 2) * 8 + 8
    omega

/-- The means array after region 0, whatever contents `V` the region is entered from. -/
theorem pool_array (c : Dev nD) :
    ((dat0 (F := Ideal) V c).arrAt 1 cfg0.N : S96x8.Idx → EReal)
      = Cert.DynConv.pool (V c main_arg0 : S8x96x256x256.Idx → EReal) := by
  exact (dat0 (F := Ideal) V c).arrAt_eq_of_cover 1 (Cert.DynConv.pool (V c main_arg0 : S8x96x256x256.Idx → EReal))
    (fun t _ => flushed_eq V c t) cover

end Cert.KernelIdeal.PoolValue

end
-- ==== Proof.ConvBody.lean ====
/-
  Region 1's body as one pure term: the ten stores of a grid point, each the previous contents of the output buffer
  plus one tap's weighted, shifted copy of the input block, composed in program order from the zero fill.
-/
import proofs.«131768_j87892210745472_1_alg».proof.Proof.Gen.KernelIdeal.Frame

set_option maxRecDepth 16384

noncomputable section

namespace Cert.KernelIdeal.ConvValue

open Idealize.ShloMosaic Idealize.ShloMosaic.TcCoe Idealize.SL.Sem
open Idealize.ShloMosaic.Pipeline (Dat Cfg Window)
open Cert.KernelIdeal Cert.KernelIdeal.Gen

variable {F : FTy → Type} [FloatOps F]

/-- Column `p` of the weights block, as the body loads it: an [8, 1] rectangle at (0, p). -/
abbrev col0 (x0 : Vec F S8x9 .f32) : Vec F S8x1 .f32 := View.ld x0 (Rect.unit (s := S8x9) ![0, 0] S8x1.size inb_S8x9_S8x1_0_0)
abbrev col1 (x0 : Vec F S8x9 .f32) : Vec F S8x1 .f32 := View.ld x0 (Rect.unit (s := S8x9) ![0, 1] S8x1.size inb_S8x9_S8x1_0_1)
abbrev col2 (x0 : Vec F S8x9 .f32) : Vec F S8x1 .f32 := View.ld x0 (Rect.unit (s := S8x9) ![0, 2] S8x1.size inb_S8x9_S8x1_0_2)
abbrev col3 (x0 : Vec F S8x9 .f32) : Vec F S8x1 .f32 := View.ld x0 (Rect.unit (s := S8x9) ![0, 3] S8x1.size inb_S8x9_S8x1_0_3)
abbrev col4 (x0 : Vec F S8x9 .f32) : Vec F S8x1 .f32 := View.ld x0 (Rect.unit (s := S8x9) ![0, 4] S8x1.size inb_S8x9_S8x1_0_4)
abbrev col5 (x0 : Vec F S8x9 .f32) : Vec F S8x1 .f32 := View.ld x0 (Rect.unit (s := S8x9) ![0, 5] S8x1.size inb_S8x9_S8x1_0_5)
abbrev col6 (x0 : Vec F S8x9 .f32) : Vec F S8x1 .f32 := View.ld x0 (Rect.unit (s := S8x9) ![0, 6] S8x1.size inb_S8x9_S8x1_0_6)
abbrev col7 (x0 : Vec F S8x9 .f32) : Vec F S8x1 .f32 := View.ld x0 (Rect.unit (s := S8x9) ![0, 7] S8x1.size inb_S8x9_S8x1_0_7)
abbrev col8 (x0 : Vec F S8x9 .f32) : Vec F S8x1 .f32 := View.ld x0 (Rect.unit (s := S8x9) ![0, 8] S8x1.size inb_S8x9_S8x1_0_8)

/-- The output buffer after each of the ten stores, in program order (tap p is added by store p + 1). -/
def acc0 : Vec F S8x2x256x256 .f32 := k1_pay3
def acc1 (x0 : Vec F S8x9 .f32) (x1 : Vec F S8x2x256x256 .f32) : Vec F S8x2x256x256 .f32 := k1_pay5 x1 (col0 x0) acc0
def acc2 (x0 : Vec F S8x9 .f32) (x1 : Vec F S8x2x256x256 .f32) : Vec F S8x2x256x256 .f32 := k1_pay6 x1 (col1 x0) (acc1 x0 x1)
def acc3 (x0 : Vec F S8x9 .f32) (x1 : Vec F S8x2x256x256 .f32) : Vec F S8x2x256x256 .f32 := k1_pay7 (k1_pay4 x1) (col2 x0) (acc2 x0 x1)
def acc4 (x0 : Vec F S8x9 .f32) (x1 : Vec F S8x2x256x256 .f32) : Vec F S8x2x256x256 .f32 := k1_pay8 x1 (col3 x0) (acc3 x0 x1)
def acc5 (x0 : Vec F S8x9 .f32) (x1 : Vec F S8x2x256x256 .f32) : Vec F S8x2x256x256 .f32 := k1_pay10 x1 (k1_pay9 (col4 x0)) (acc4 x0 x1)
def acc6 (x0 : Vec F S8x9 .f32) (x1 : Vec F S8x2x256x256 .f32) : Vec F S8x2x256x256 .f32 := k1_pay11 x1 (col5 x0) (acc5 x0 x1)
def acc7 (x0 : Vec F S8x9 .f32) (x1 : Vec F S8x2x256x256 .f32) : Vec F S8x2x256x256 .f32 := k1_pay13 x1 (col6 x0) (acc6 x0 x1)
def acc8 (x0 : Vec F S8x9 .f32) (x1 : Vec F S8x2x256x256 .f32) : Vec F S8x2x256x256 .f32 := k1_pay1 (k1_pay12 x1) (col7 x0) (acc7 x0 x1)
def acc9 (x0 : Vec F S8x9 .f32) (x1 : Vec F S8x2x256x256 .f32) : Vec F S8x2x256x256 .f32 := k1_pay2 (k1_pay12 x1) (col8 x0) (acc8 x0 x1)

end Cert.KernelIdeal.ConvValue

end
-- ==== Proof.ConvPieces.lean ====
/-
  Region 1's body read off its run: the pieces the ten stores leave in the output window's staging buffer, read back,
  are the composed term `acc9` of the weights block and the input block the body was called with.
-/
import proofs.«131768_j87892210745472_1_alg».proof.Proof.Gen.KernelIdeal.Frame
import proofs.«131768_j87892210745472_1_alg».proof.Proof.ConvBody
import Idealize.ShloMosaic.Lib.Pipeline.Value
import Idealize.ShloMosaic.PureOps.Ideal

set_option maxRecDepth 16384

noncomputable section

namespace Cert.KernelIdeal.ConvValue

open Idealize.ShloMosaic Idealize.ShloMosaic.TcCoe Idealize.SL.Sem
open Idealize.ShloMosaic.Pipeline (Dat Cfg Window)
open Cert.KernelIdeal Cert.KernelIdeal.Gen

/-- The four zero offsets of a whole-buffer rectangle, as the constant function. -/
theorem hz4 : (![0, 0, 0, 0] : Fin 4 → Nat) = fun _ => 0 := funext fun a => by fin_cases a <;> rfl

/-- The staging buffer after the body, on any staging memrefs, is the tenth accumulator. -/
theorem out_eq_acc9 (c : Dev nD) (i : grid1.Coords) (arg1 : Memref sig .tc .vmem S8x9 .f32) (harg1 : arg1.IsWhole)
    (arg2 : Memref sig .tc .vmem S8x2x256x256 .f32) (harg2 : arg2.IsWhole)
    (arg3 : Memref sig .tc .vmem S8x2x256x256 .f32) (harg3 : arg3.IsWhole)
    (x0 : Vec Ideal S8x9 .f32) (x1 : Vec Ideal S8x2x256x256 .f32) :
    out1_A_2 (F := Ideal) c i arg1 harg1 arg2 harg2 arg3 harg3 x0 x1 = acc9 (F := Ideal) x0 x1 := by
  unfold out1_A_2
  rw [View.read_writes_eq_canon _ _ _ (cover1_A_2 c i arg1 harg1 arg2 harg2 arg3 harg3 x0 x1)]
  unfold kernelRun1_A
  dsimp only
  sl_unfold_words
  -- the pieces are the ten stores, newest first, each over the whole buffer: the newest one's payload is what is left;
  rw [View.canon_cons_unit_zero (S := S8x2x256x256) hz4]
  -- each load of the output buffer reads back, through the newest earlier store's own rectangle, that store's payload;
  -- the loads of the two input buffers read their contents, whole (the input block) or one column (the weights).
  simp only [View.readCov_cons_toLoadRect, View.readCov_unit_zero (S := S8x2x256x256) _ hz4, View.readAt_eq_ld,
    harg1.read_unread, harg2.read_unread, View.ld_unit_zero (S := S8x2x256x256) hz4]
  -- what is left is the ten payloads composed in program order over the zero fill: the tenth accumulator as defined.
  rfl

end Cert.KernelIdeal.ConvValue

end
-- ==== Proof.ConvTaps.lean ====
/-
  The body's composed term read at an index: each accumulator adds one tap — the weight of its batch row times the
  input block shifted by one row and one column with zeros entering at the edge — so the tenth is `convB`.

  A shift by one place along an axis is a slice of all but one edge place joined to a slab of zeros one place wide;
  read at an index it is the operand read through a border of zeros along that axis, at the padded coordinate
  `h + 0` (shift down / right), `h + 1` (no shift) or `h + 2` (shift up / left). A border along the rows read through
  a border along the columns is `paddedB`, the plane inside its border of zeros on all four sides.
-/
import proofs.«131768_j87892210745472_1_alg».proof.Proof.Gen.KernelIdeal.Frame
import proofs.«131768_j87892210745472_1_alg».proof.Proof.ConvBody
import proofs.«131768_j87892210745472_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.ConvValue

open Idealize.ShloMosaic Idealize.ShloMosaic.TcCoe Idealize.SL.Sem
open Idealize.ShloMosaic.Pipeline (Dat Cfg Window)
open Cert.KernelIdeal Cert.KernelIdeal.Gen
open Idealize.ShloMosaic.ValueIdx

/-! ## A border of zeros along one axis -/

/-- Column w of plane (b, c) read through a border of zeros above and below, at padded row `hp ∈ [0, 258)`. -/
def padRow (v : S8x2x256x256.Idx → EReal) (b : Fin 8) (c : Fin 2) (hp : ℕ) (w : Fin 256) : EReal :=
  if hh : 1 ≤ hp ∧ hp ≤ 256 then v (ix4 b c ⟨hp - 1, by omega⟩ w) else 0

/-- Row h of plane (b, c) read through a border of zeros left and right, at padded column `wp ∈ [0, 258)`. -/
def padCol (u : S8x2x256x256.Idx → EReal) (b : Fin 8) (c : Fin 2) (h : Fin 256) (wp : ℕ) : EReal :=
  if hw : 1 ≤ wp ∧ wp ≤ 256 then u (ix4 b c h ⟨wp - 1, by omega⟩) else 0

/-- A block that reads `v` through the row border at row offset `di`, itself read through the column border, reads `v`
    through the border on all four sides. -/
theorem padCol_padRow (v r : S8x2x256x256.Idx → EReal) (b : Fin 8) (c : Fin 2) (di : ℕ)
    (hr : ∀ (h' w' : Fin 256), r (ix4 b c h' w') = padRow v b c (h'.val + di) w') (h : Fin 256) (wp : ℕ) :
    padCol r b c h wp = Cert.DynConv.paddedB v b c (h.val + di) wp := by
  unfold padCol Cert.DynConv.paddedB
  by_cases hw : 1 ≤ wp ∧ wp ≤ 256
  · rw [dif_pos hw, hr]
    unfold padRow
    by_cases hh : 1 ≤ h.val + di ∧ h.val + di ≤ 256
    · rw [dif_pos hh, dif_pos ⟨hh.1, hh.2, hw.1, hw.2⟩]
    · rw [dif_neg hh, dif_neg (fun hx => hh ⟨hx.1, hx.2.1⟩)]
  · rw [dif_neg hw, dif_neg (fun hx => hw ⟨hx.2.2.1, hx.2.2.2⟩)]

/-- The block itself reads through the row border one row in. -/
theorem rowSame_apply (v : S8x2x256x256.Idx → EReal) (b : Fin 8) (c : Fin 2) (h w : Fin 256) :
    v (ix4 b c h w) = padRow v b c (h.val + 1) w := by
  unfold padRow
  rw [dif_pos ⟨by omega, by omega⟩]
  rfl

/-- The block itself reads through the column border one column in. -/
theorem colSame_apply (u : S8x2x256x256.Idx → EReal) (b : Fin 8) (c : Fin 2) (h w : Fin 256) :
    u (ix4 b c h w) = padCol u b c h (w.val + 1) := by
  unfold padCol
  rw [dif_pos ⟨by omega, by omega⟩]
  rfl

/-! ## The row shifts -/

/-- The block shifted one row down, a zero row entering at the top (row 0 reads 0, row h + 1 reads row h): the row
    border read at offset 0. -/
theorem rowDown_apply (v : Vec Ideal S8x2x256x256 .f32) (b : Fin 8) (c : Fin 2) (h w : Fin 256) :
    (k1_pay4 (F := Ideal) v : S8x2x256x256.Idx → EReal) (ix4 b c h w) = padRow v b c (h.val + 0) w := by
  unfold k1_pay4 padRow
  by_cases hh : 1 ≤ h.val
  · -- a row past the zero slab: the slice's row h - 1, which is the block's
    rw [dif_pos ⟨by omega, by omega⟩]
    refine (concatenate_pair_apply_right (t := S8x2x256x256) (s₁ := S8x2x1x256) (s₂ := S8x2x255x256) (2 : Fin 4) _ _ _
      (ix4 b c h w) rfl rfl (ix4 b c ⟨h.val - 1, by omega⟩ w) (fun a ha => ?_) ?_).trans ?_
    · match a with
      | ⟨0, _⟩ => rfl
      | ⟨1, _⟩ => rfl
      | ⟨2, _⟩ => exact absurd rfl ha
      | ⟨3, _⟩ => rfl
    · show (h.val - 1) + 1 = h.val
      omega
    · refine extractStridedSlice_apply _ _ _ _ _ (fun a => ?_)
      match a with
      | ⟨0, _⟩ => show b.val = 0 + b.val; omega
      | ⟨1, _⟩ => show c.val = 0 + c.val; omega
      | ⟨2, _⟩ => show h.val + 0 - 1 = 0 + (h.val - 1); omega
      | ⟨3, _⟩ => show w.val = 0 + w.val; omega
  · -- row 0: the zero slab
    rw [dif_neg (by omega)]
    refine (concatenate_pair_apply_left (t := S8x2x256x256) (s₁ := S8x2x1x256) (s₂ := S8x2x255x256) (2 : Fin 4) _ _ _
      (ix4 b c h w) rfl (ix4 b c ⟨0, by omega⟩ w) (fun a => ?_)).trans ?_
    · match a with
      | ⟨0, _⟩ => rfl
      | ⟨1, _⟩ => rfl
      | ⟨2, _⟩ => show 0 = h.val; omega
      | ⟨3, _⟩ => rfl
    · exact Ideal.ofBits_zero_f32

/-- The block shifted one row up, a zero row entering at the bottom (row 255 reads 0, row h reads row h + 1): the row
    border read at offset 2. -/
theorem rowUp_apply (v : Vec Ideal S8x2x256x256 .f32) (b : Fin 8) (c : Fin 2) (h w : Fin 256) :
    (k1_pay12 (F := Ideal) v : S8x2x256x256.Idx → EReal) (ix4 b c h w) = padRow v b c (h.val + 2) w := by
  unfold k1_pay12 padRow
  by_cases hh : h.val + 1 < 256
  · -- a row before the zero slab: the slice's row h, which is the block's row h + 1
    rw [dif_pos ⟨by omega, by omega⟩]
    refine (concatenate_pair_apply_left (t := S8x2x256x256) (s₁ := S8x2x255x256) (s₂ := S8x2x1x256) (2 : Fin 4) _ _ _
      (ix4 b c h w) rfl (ix4 b c ⟨h.val, by omega⟩ w) (fun a => ?_)).trans ?_
    · match a with
      | ⟨0, _⟩ => rfl
      | ⟨1, _⟩ => rfl
      | ⟨2, _⟩ => rfl
      | ⟨3, _⟩ => rfl
    · refine extractStridedSlice_apply _ _ _ _ _ (fun a => ?_)
      match a with
      | ⟨0, _⟩ => show b.val = 0 + b.val; omega
      | ⟨1, _⟩ => show c.val = 0 + c.val; omega
      | ⟨2, _⟩ => show h.val + 2 - 1 = 1 + h.val; omega
      | ⟨3, _⟩ => show w.val = 0 + w.val; omega
  · -- row 255: the zero slab
    rw [dif_neg (by omega)]
    refine (concatenate_pair_apply_right (t := S8x2x256x256) (s₁ := S8x2x255x256) (s₂ := S8x2x1x256) (2 : Fin 4) _ _ _
      (ix4 b c h w) rfl rfl (ix4 b c ⟨0, by omega⟩ w) (fun a ha => ?_) ?_).trans ?_
    · match a with
      | ⟨0, _⟩ => rfl
      | ⟨1, _⟩ => rfl
      | ⟨2, _⟩ => exact absurd rfl ha
      | ⟨3, _⟩ => rfl
    · show 0 + 255 = h.val
      have := h.isLt
      omega
    · exact Ideal.ofBits_zero_f32

/-! ## The column shifts, over an arbitrary block -/

/-- A block shifted one column right, a zero column entering on the left. -/
def colRight (u : FVec Ideal S8x2x256x256 .f32) : FVec Ideal S8x2x256x256 .f32 :=
  concatenate S8x2x256x256 3
    [⟨S8x2x256x1, broadcast S8x2x256x1 (Scalar.ofBits (F := Ideal) .f32 0x00000000#32)⟩,
     ⟨S8x2x256x255, extractStridedSlice S8x2x256x255 ![0, 0, 0, 0] u slices_S8x2x256x256_o0_0_0_0_S8x2x256x255⟩]
    concatenates_S8x2x256x1_S8x2x256x255_S8x2x256x256_d3

/-- A block shifted one column left, a zero column entering on the right. -/
def colLeft (u : FVec Ideal S8x2x256x256 .f32) : FVec Ideal S8x2x256x256 .f32 :=
  concatenate S8x2x256x256 3
    [⟨S8x2x256x255, extractStridedSlice S8x2x256x255 ![0, 0, 0, 1] u slices_S8x2x256x256_o0_0_0_1_S8x2x256x255⟩,
     ⟨S8x2x256x1, broadcast S8x2x256x1 (Scalar.ofBits (F := Ideal) .f32 0x00000000#32)⟩]
    concatenates_S8x2x256x255_S8x2x256x1_S8x2x256x256_d3

/-- Column 0 of the right shift reads 0, column w + 1 reads column w: the column border read at offset 0. -/
theorem colRight_apply (u : FVec Ideal S8x2x256x256 .f32) (b : Fin 8) (c : Fin 2) (h w : Fin 256) :
    (colRight u : S8x2x256x256.Idx → EReal) (ix4 b c h w) = padCol u b c h (w.val + 0) := by
  unfold colRight padCol
  by_cases hw : 1 ≤ w.val
  · rw [dif_pos ⟨by omega, by omega⟩]
    refine (concatenate_pair_apply_right (t := S8x2x256x256) (s₁ := S8x2x256x1) (s₂ := S8x2x256x255) (3 : Fin 4) _ _ _
      (ix4 b c h w) rfl rfl (ix4 b c h ⟨w.val - 1, by omega⟩) (fun a ha => ?_) ?_).trans ?_
    · match a with
      | ⟨0, _⟩ => rfl
      | ⟨1, _⟩ => rfl
      | ⟨2, _⟩ => rfl
      | ⟨3, _⟩ => exact absurd rfl ha
    · show (w.val - 1) + 1 = w.val
      omega
    · refine extractStridedSlice_apply _ _ _ _ _ (fun a => ?_)
      match a with
      | ⟨0, _⟩ => show b.val = 0 + b.val; omega
      | ⟨1, _⟩ => show c.val = 0 + c.val; omega
      | ⟨2, _⟩ => show h.val = 0 + h.val; omega
      | ⟨3, _⟩ => show w.val + 0 - 1 = 0 + (w.val - 1); omega
  · rw [dif_neg (by omega)]
    refine (concatenate_pair_apply_left (t := S8x2x256x256) (s₁ := S8x2x256x1) (s₂ := S8x2x256x255) (3 : Fin 4) _ _ _
      (ix4 b c h w) rfl (ix4 b c h ⟨0, by omega⟩) (fun a => ?_)).trans ?_
    · match a with
      | ⟨0, _⟩ => rfl
      | ⟨1, _⟩ => rfl
      | ⟨2, _⟩ => rfl
      | ⟨3, _⟩ => show 0 = w.val; omega
    · exact Ideal.ofBits_zero_f32

/-- Column 255 of the left shift reads 0, column w reads column w + 1: the column border read at offset 2. -/
theorem colLeft_apply (u : FVec Ideal S8x2x256x256 .f32) (b : Fin 8) (c : Fin 2) (h w : Fin 256) :
    (colLeft u : S8x2x256x256.Idx → EReal) (ix4 b c h w) = padCol u b c h (w.val + 2) := by
  unfold colLeft padCol
  by_cases hw : w.val + 1 < 256
  · rw [dif_pos ⟨by omega, by omega⟩]
    refine (concatenate_pair_apply_left (t := S8x2x256x256) (s₁ := S8x2x256x255) (s₂ := S8x2x256x1) (3 : Fin 4) _ _ _
      (ix4 b c h w) rfl (ix4 b c h ⟨w.val, by omega⟩) (fun a => ?_)).trans ?_
    · match a with
      | ⟨0, _⟩ => rfl
      | ⟨1, _⟩ => rfl
      | ⟨2, _⟩ => rfl
      | ⟨3, _⟩ => rfl
    · refine extractStridedSlice_apply _ _ _ _ _ (fun a => ?_)
      match a with
      | ⟨0, _⟩ => show b.val = 0 + b.val; omega
      | ⟨1, _⟩ => show c.val = 0 + c.val; omega
      | ⟨2, _⟩ => show h.val = 0 + h.val; omega
      | ⟨3, _⟩ => show w.val + 2 - 1 = 1 + w.val; omega
  · rw [dif_neg (by omega)]
    refine (concatenate_pair_apply_right (t := S8x2x256x256) (s₁ := S8x2x256x255) (s₂ := S8x2x256x1) (3 : Fin 4) _ _ _
      (ix4 b c h w) rfl rfl (ix4 b c h ⟨0, by omega⟩) (fun a ha => ?_) ?_).trans ?_
    · match a with
      | ⟨0, _⟩ => rfl
      | ⟨1, _⟩ => rfl
      | ⟨2, _⟩ => rfl
      | ⟨3, _⟩ => exact absurd rfl ha
    · show 0 + 255 = w.val
      have := w.isLt
      omega
    · exact Ideal.ofBits_zero_f32

/-! ## A weights column spread over the block -/

/-- A column of eight weights, one per batch row, spread over the block. -/
def spread (cw : Vec Ideal S8x1 .f32) : FVec Ideal S8x2x256x256 .f32 :=
  broadcastTo S8x2x256x256 (shapeCast S8x1x1x1 (shapeCast S8 cw shapeCasts_S8x1_S8) shapeCasts_S8_S8x1x1x1)
    broadcasts_S8x1x1x1_S8x2x256x256

/-- Every entry of batch row b reads weight b: the two casts [8, 1] → [8] → [8, 1, 1, 1] keep the row-major place b. -/
theorem spread_apply (cw : Vec Ideal S8x1 .f32) (b : Fin 8) (c : Fin 2) (h w : Fin 256) :
    (spread cw : S8x2x256x256.Idx → EReal) (ix4 b c h w) = (cw : S8x1.Idx → EReal) (ix2 b 0) := by
  unfold spread
  refine (broadcastTo_apply _ _ (ix4 b c h w) (ix4 b 0 0 0) (fun a => ?_)).trans ?_
  · match a with
    | ⟨0, _⟩ => rfl
    | ⟨1, _⟩ => rfl
    | ⟨2, _⟩ => rfl
    | ⟨3, _⟩ => rfl
  refine (shapeCast_apply _ _ (ix4 b 0 0 0) (ix1 b) ?_).trans ?_
  · rw [Shape.rowMajor_val_one, Shape.rowMajor_val_four]
    show b.val = ((b.val * 1 + 0) * 1 + 0) * 1 + 0
    omega
  refine shapeCast_apply _ _ (ix1 b) (ix2 b 0) ?_
  rw [Shape.rowMajor_val_one, Shape.rowMajor_val_two]
  show b.val * 1 + 0 = b.val
  omega

/-- Column p of the weights block, an [8, 1] rectangle at (0, p), read at batch row b is the weight (b, p). -/
theorem ld_col (x0 : Vec Ideal S8x9 .f32) (p : Nat) (hp : p < 9)
    (inb : ∀ a, (![0, p] : Fin 2 → Nat) a + S8x1.size a ≤ S8x9.size a) (b : Fin 8) :
    (View.ld x0 (Rect.unit (s := S8x9) ![0, p] S8x1.size inb) : S8x1.Idx → EReal) (ix2 b 0)
      = (x0 : S8x9.Idx → EReal) (ix2 b ⟨p, hp⟩) := by
  show x0 ((Rect.unit (s := S8x9) ![0, p] S8x1.size inb).idx (ix2 b 0)) = _
  refine congrArg x0 (funext fun a => ?_)
  match a with
  | ⟨0, _⟩ => exact Fin.ext (by show 0 + 1 * b.val = b.val; omega)
  | ⟨1, _⟩ => exact Fin.ext (by show p + 1 * 0 = p; omega)

/-! ## One accumulator step at an index -/

/-- The buffer's contents `a` plus the spread weights column `cw` times a block `u`, where `cw` holds column p of the
    weights, `u` reads a block `r` through the column border at offset dj, and `r` reads the input block through the row
    border at offset di: at (b, c, h, w) the contents plus weight (b, p) times the padded plane at (h + di, w + dj). -/
theorem step_tap (x0 : S8x9.Idx → EReal) (x1 : S8x2x256x256.Idx → EReal) (a r u : FVec Ideal S8x2x256x256 .f32)
    (cw : Vec Ideal S8x1 .f32) (p : Fin 9) (di dj : ℕ) (b : Fin 8) (c : Fin 2) (h w : Fin 256)
    (hcw : (cw : S8x1.Idx → EReal) (ix2 b 0) = x0 (ix2 b p))
    (hu : (u : S8x2x256x256.Idx → EReal) (ix4 b c h w) = padCol r b c h (w.val + dj))
    (hr : ∀ (h' w' : Fin 256), (r : S8x2x256x256.Idx → EReal) (ix4 b c h' w') = padRow x1 b c (h'.val + di) w') :
    (addf (shapeCast S8x2x256x256 a shapeCasts_S8x2x256x256_S8x2x256x256) (mulf (spread cw) u) : S8x2x256x256.Idx → EReal)
        (ix4 b c h w)
      = (a : S8x2x256x256.Idx → EReal) (ix4 b c h w)
        + x0 (ix2 b p) * Cert.DynConv.paddedB x1 b c (h.val + di) (w.val + dj) := by
  rw [shapeCast_self]
  show a _ + spread cw _ * u _ = _
  rw [spread_apply, hcw, hu, padCol_padRow x1 r b c di hr]

/-! ## The ten stores at an index

Store p + 1 adds tap p = 3·di + dj: its payload is a step over column p of the weights and the input block shifted by
(di - 1) rows, then (dj - 1) columns. -/

/-- The zero fill reads 0. -/
theorem acc0_apply (j : S8x2x256x256.Idx) : (acc0 (F := Ideal) : S8x2x256x256.Idx → EReal) j = 0 := by
  unfold acc0 k1_pay3
  exact Ideal.ofBits_zero_f32

section Stores
variable (x0 : Vec Ideal S8x9 .f32) (x1 : Vec Ideal S8x2x256x256 .f32) (b : Fin 8) (c : Fin 2) (h w : Fin 256)

/-- Tap (0, 0): one row down, one column right. -/
theorem acc1_apply : (acc1 (F := Ideal) x0 x1 : S8x2x256x256.Idx → EReal) (ix4 b c h w)
    = (acc0 (F := Ideal) : S8x2x256x256.Idx → EReal) (ix4 b c h w)
      + (x0 : S8x9.Idx → EReal) (ix2 b 0) * Cert.DynConv.paddedB (x1 : S8x2x256x256.Idx → EReal) b c (h.val + 0) (w.val + 0) :=
  step_tap x0 x1 (acc0 (F := Ideal)) (k1_pay4 x1) (colRight (k1_pay4 x1)) (col0 x0) 0 0 0 b c h w (ld_col x0 0 (by omega) _ b)
    (colRight_apply _ b c h w) (rowDown_apply x1 b c)

/-- Tap (0, 1): one row down. -/
theorem acc2_apply : (acc2 (F := Ideal) x0 x1 : S8x2x256x256.Idx → EReal) (ix4 b c h w)
    = (acc1 (F := Ideal) x0 x1 : S8x2x256x256.Idx → EReal) (ix4 b c h w)
      + (x0 : S8x9.Idx → EReal) (ix2 b 1) * Cert.DynConv.paddedB (x1 : S8x2x256x256.Idx → EReal) b c (h.val + 0) (w.val + 1) :=
  step_tap x0 x1 (acc1 x0 x1) (k1_pay4 x1) (k1_pay4 x1) (col1 x0) 1 0 1 b c h w (ld_col x0 1 (by omega) _ b)
    (colSame_apply _ b c h w) (rowDown_apply x1 b c)

/-- Tap (0, 2): one row down, one column left. -/
theorem acc3_apply : (acc3 (F := Ideal) x0 x1 : S8x2x256x256.Idx → EReal) (ix4 b c h w)
    = (acc2 (F := Ideal) x0 x1 : S8x2x256x256.Idx → EReal) (ix4 b c h w)
      + (x0 : S8x9.Idx → EReal) (ix2 b 2) * Cert.DynConv.paddedB (x1 : S8x2x256x256.Idx → EReal) b c (h.val + 0) (w.val + 2) :=
  step_tap x0 x1 (acc2 x0 x1) (k1_pay4 x1) (colLeft (k1_pay4 x1)) (col2 x0) 2 0 2 b c h w (ld_col x0 2 (by omega) _ b)
    (colLeft_apply _ b c h w) (rowDown_apply x1 b c)

/-- Tap (1, 0): one column right. -/
theorem acc4_apply : (acc4 (F := Ideal) x0 x1 : S8x2x256x256.Idx → EReal) (ix4 b c h w)
    = (acc3 (F := Ideal) x0 x1 : S8x2x256x256.Idx → EReal) (ix4 b c h w)
      + (x0 : S8x9.Idx → EReal) (ix2 b 3) * Cert.DynConv.paddedB (x1 : S8x2x256x256.Idx → EReal) b c (h.val + 1) (w.val + 0) :=
  step_tap x0 x1 (acc3 x0 x1) x1 (colRight x1) (col3 x0) 3 1 0 b c h w (ld_col x0 3 (by omega) _ b)
    (colRight_apply _ b c h w) (rowSame_apply x1 b c)

/-- Tap (1, 1): the block itself. -/
theorem acc5_apply : (acc5 (F := Ideal) x0 x1 : S8x2x256x256.Idx → EReal) (ix4 b c h w)
    = (acc4 (F := Ideal) x0 x1 : S8x2x256x256.Idx → EReal) (ix4 b c h w)
      + (x0 : S8x9.Idx → EReal) (ix2 b 4) * Cert.DynConv.paddedB (x1 : S8x2x256x256.Idx → EReal) b c (h.val + 1) (w.val + 1) :=
  step_tap x0 x1 (acc4 x0 x1) x1 x1 (col4 x0) 4 1 1 b c h w (ld_col x0 4 (by omega) _ b)
    (colSame_apply _ b c h w) (rowSame_apply x1 b c)

/-- Tap (1, 2): one column left. -/
theorem acc6_apply : (acc6 (F := Ideal) x0 x1 : S8x2x256x256.Idx → EReal) (ix4 b c h w)
    = (acc5 (F := Ideal) x0 x1 : S8x2x256x256.Idx → EReal) (ix4 b c h w)
      + (x0 : S8x9.Idx → EReal) (ix2 b 5) * Cert.DynConv.paddedB (x1 : S8x2x256x256.Idx → EReal) b c (h.val + 1) (w.val + 2) :=
  step_tap x0 x1 (acc5 x0 x1) x1 (colLeft x1) (col5 x0) 5 1 2 b c h w (ld_col x0 5 (by omega) _ b)
    (colLeft_apply _ b c h w) (rowSame_apply x1 b c)

/-- Tap (2, 0): one row up, one column right. -/
theorem acc7_apply : (acc7 (F := Ideal) x0 x1 : S8x2x256x256.Idx → EReal) (ix4 b c h w)
    = (acc6 (F := Ideal) x0 x1 : S8x2x256x256.Idx → EReal) (ix4 b c h w)
      + (x0 : S8x9.Idx → EReal) (ix2 b 6) * Cert.DynConv.paddedB (x1 : S8x2x256x256.Idx → EReal) b c (h.val + 2) (w.val + 0) :=
  step_tap x0 x1 (acc6 x0 x1) (k1_pay12 x1) (colRight (k1_pay12 x1)) (col6 x0) 6 2 0 b c h w (ld_col x0 6 (by omega) _ b)
    (colRight_apply _ b c h w) (rowUp_apply x1 b c)

/-- Tap (2, 1): one row up. -/
theorem acc8_apply : (acc8 (F := Ideal) x0 x1 : S8x2x256x256.Idx → EReal) (ix4 b c h w)
    = (acc7 (F := Ideal) x0 x1 : S8x2x256x256.Idx → EReal) (ix4 b c h w)
      + (x0 : S8x9.Idx → EReal) (ix2 b 7) * Cert.DynConv.paddedB (x1 : S8x2x256x256.Idx → EReal) b c (h.val + 2) (w.val + 1) :=
  step_tap x0 x1 (acc7 x0 x1) (k1_pay12 x1) (k1_pay12 x1) (col7 x0) 7 2 1 b c h w (ld_col x0 7 (by omega) _ b)
    (colSame_apply _ b c h w) (rowUp_apply x1 b c)

/-- Tap (2, 2): one row up, one column left. -/
theorem acc9_apply : (acc9 (F := Ideal) x0 x1 : S8x2x256x256.Idx → EReal) (ix4 b c h w)
    = (acc8 (F := Ideal) x0 x1 : S8x2x256x256.Idx → EReal) (ix4 b c h w)
      + (x0 : S8x9.Idx → EReal) (ix2 b 8) * Cert.DynConv.paddedB (x1 : S8x2x256x256.Idx → EReal) b c (h.val + 2) (w.val + 2) :=
  step_tap x0 x1 (acc8 x0 x1) (k1_pay12 x1) (colLeft (k1_pay12 x1)) (col8 x0) 8 2 2 b c h w (ld_col x0 8 (by omega) _ b)
    (colLeft_apply _ b c h w) (rowUp_apply x1 b c)

end Stores

/-- The tenth accumulator is the nine-tap sum on the block. -/
theorem acc9_eq_convB (x0 : Vec Ideal S8x9 .f32) (x1 : Vec Ideal S8x2x256x256 .f32) :
    (acc9 (F := Ideal) x0 x1 : S8x2x256x256.Idx → EReal)
      = Cert.DynConv.convB (x0 : S8x9.Idx → EReal) (x1 : S8x2x256x256.Idx → EReal) := by
  funext i
  obtain ⟨b, c, h, w, rfl⟩ : ∃ (b : Fin 8) (c : Fin 2) (h : Fin 256) (w : Fin 256), i = ix4 b c h w :=
    ⟨i 0, i 1, i 2, i 3, eq_ix4 i⟩
  rw [acc9_apply, acc8_apply, acc7_apply, acc6_apply, acc5_apply, acc4_apply, acc3_apply, acc2_apply, acc1_apply,
    acc0_apply]
  rfl

end Cert.KernelIdeal.ConvValue

end
-- ==== Proof.ConvBlocks.lean ====
/-
  Region 1 read as values: after the run of the second pipeline the result array holds `conv` of the weights array
  and the input array the region found.
-/
import proofs.«131768_j87892210745472_1_alg».proof.Proof.Gen.KernelIdeal.Frame
import proofs.«131768_j87892210745472_1_alg».proof.Proof.Spec
import proofs.«131768_j87892210745472_1_alg».proof.Proof.ConvBody
import proofs.«131768_j87892210745472_1_alg».proof.Proof.ConvPieces
import proofs.«131768_j87892210745472_1_alg».proof.Proof.ConvTaps
import Idealize.ShloMosaic.Lib.Pipeline.Value
import Idealize.ShloMosaic.Lib.ValueIdx

set_option maxRecDepth 16384

noncomputable section

namespace Cert.KernelIdeal.ConvValue

open Idealize.ShloMosaic Idealize.ShloMosaic.TcCoe Idealize.SL.Sem
open Idealize.ShloMosaic.Pipeline (Dat Cfg Window)
open Cert.KernelIdeal Cert.KernelIdeal.Gen

/-- The staging buffer after the body, on any staging memrefs, from the weights block `x0` and the input block `x1`. -/
theorem out_block (c : Dev nD) (i : grid1.Coords) (arg1 : Memref sig .tc .vmem S8x9 .f32) (harg1 : arg1.IsWhole)
    (arg2 : Memref sig .tc .vmem S8x2x256x256 .f32) (harg2 : arg2.IsWhole)
    (arg3 : Memref sig .tc .vmem S8x2x256x256 .f32) (harg3 : arg3.IsWhole)
    (x0 : Vec Ideal S8x9 .f32) (x1 : Vec Ideal S8x2x256x256 .f32) :
    (out1_A_2 (F := Ideal) c i arg1 harg1 arg2 harg2 arg3 harg3 x0 x1 : S8x2x256x256.Idx → EReal)
      = Cert.DynConv.convB (x0 : S8x9.Idx → EReal) (x1 : S8x2x256x256.Idx → EReal) :=
  (out_eq_acc9 c i arg1 harg1 arg2 harg2 arg3 harg3 x0 x1).trans (acc9_eq_convB x0 x1)

open Idealize.ShloMosaic.ValueIdx

/-- The printed index maps, decided once over the grid. -/
theorem idx_facts : ∀ t : Fin cfg1.N,
    win1_0.index t (0 : Fin 2) = 0 ∧ win1_0.index t (1 : Fin 2) = 0
    ∧ win1_1.index t (0 : Fin 4) = 0 ∧ win1_1.index t (1 : Fin 4) = t.val
    ∧ win1_1.index t (2 : Fin 4) = 0 ∧ win1_1.index t (3 : Fin 4) = 0
    ∧ win1_2.index t (0 : Fin 4) = 0 ∧ win1_2.index t (1 : Fin 4) = t.val
    ∧ win1_2.index t (2 : Fin 4) = 0 ∧ win1_2.index t (3 : Fin 4) = 0 :=
  (by decide +kernel : ∀ t : Fin grid1.N, _)

/-- The grid has 48 points. -/
theorem point_lt (t : Fin cfg1.N) : t.val < 48 := by
  have h : cfg1.N = 48 := by decide
  have := t.isLt
  omega

/-- Channels 2t and 2t + 1 of an array, as a two-channel block. -/
def chanBlock (x : S8x96x256x256.Idx → EReal) (t : ℕ) (ht : t < 48) : S8x2x256x256.Idx → EReal :=
  fun j => x (ix4 (j 0) ⟨2 * t + (j 1).val, by have : (j 1).val < 2 := (j 1).isLt; omega⟩ (j 2) (j 3))

/-- A padded read of the block's plane c' is the padded read of the array's plane 2t + c': same border, same entry inside. -/
theorem paddedB_chanBlock (x : S8x96x256x256.Idx → EReal) (t : ℕ) (ht : t < 48) (b : Fin 8) (c' : Fin 2) (hp wp : ℕ) :
    Cert.DynConv.paddedB (chanBlock x t ht) b c' hp wp
      = Cert.DynConv.padded x b ⟨2 * t + c'.val, by have := c'.isLt; omega⟩ hp wp := by
  unfold Cert.DynConv.paddedB Cert.DynConv.padded
  by_cases hh : 1 ≤ hp ∧ hp ≤ 256 ∧ 1 ≤ wp ∧ wp ≤ 256
  · rw [dif_pos hh, dif_pos hh]; rfl
  · rw [dif_neg hh, dif_neg hh]

/-- The nine taps of a block's entry are the nine taps of the array's entry in the same plane. -/
theorem convB_chanBlock (kw : S8x9.Idx → EReal) (x : S8x96x256x256.Idx → EReal) (t : ℕ) (ht : t < 48) (j : S8x2x256x256.Idx) :
    Cert.DynConv.convB kw (chanBlock x t ht) j
      = Cert.DynConv.conv kw x (ix4 (j 0) ⟨2 * t + (j 1).val, by have : (j 1).val < 2 := (j 1).isLt; omega⟩ (j 2) (j 3)) := by
  unfold Cert.DynConv.convB Cert.DynConv.conv
  simp only [paddedB_chanBlock]
  rfl

variable (V : (c : Dev nD) → (b : Ref sig .tc) → Buf (Elt Ideal) ((c : Thread nD τ).loc b))

/-- The weights window is the whole [8, 9] array at every point. -/
theorem weights_block (c : Dev nD) (t : Fin cfg1.N) :
    (iblk1 (F := Ideal) V c 0 t : S8x9.Idx → EReal) = (V c main_v23 : S8x9.Idx → EReal) := by
  obtain ⟨e0, e1, -⟩ := idx_facts t
  funext j
  unfold iblk1
  rw [View.read_apply]
  show (V c main_v23 : S8x9.Idx → EReal) _ = (V c main_v23 : S8x9.Idx → EReal) j
  congr 1
  funext a
  apply Fin.ext
  match a with
  | ⟨0, _⟩ => show win1_0.index t (0 : Fin 2) * 8 + 1 * (j 0).val = (j 0).val; rw [e0]; omega
  | ⟨1, _⟩ => show win1_0.index t (1 : Fin 2) * 9 + 1 * (j 1).val = (j 1).val; rw [e1]; omega

/-- Point t's input block is channels 2t, 2t + 1 of the input array. -/
theorem input_block (c : Dev nD) (t : Fin cfg1.N) :
    (iblk1 (F := Ideal) V c 1 t : S8x2x256x256.Idx → EReal)
      = chanBlock (V c main_arg0 : S8x96x256x256.Idx → EReal) t.val (point_lt t) := by
  obtain ⟨-, -, e0, e1, e2, e3, -⟩ := idx_facts t
  funext j
  unfold iblk1 chanBlock
  rw [View.read_apply]
  show (V c main_arg0 : S8x96x256x256.Idx → EReal) _ = (V c main_arg0 : S8x96x256x256.Idx → EReal) _
  congr 1
  funext a
  apply Fin.ext
  match a with
  | ⟨0, _⟩ => show win1_1.index t (0 : Fin 4) * 8 + 1 * (j 0).val = (j 0).val; rw [e0]; omega
  | ⟨1, _⟩ => show win1_1.index t (1 : Fin 4) * 2 + 1 * (j 1).val = 2 * t.val + (j 1).val; rw [e1]; omega
  | ⟨2, _⟩ => show win1_1.index t (2 : Fin 4) * 256 + 1 * (j 2).val = (j 2).val; rw [e2]; omega
  | ⟨3, _⟩ => show win1_1.index t (3 : Fin 4) * 256 + 1 * (j 3).val = (j 3).val; rw [e3]; omega

/-- What point t writes back is block t of conv of the weights array and the input array. -/
theorem flushed_eq (c : Dev nD) (t : Fin cfg1.N) :
    (dat1 (F := Ideal) V c).flushed 2 t
      = ((cfg1.win 2).blk t).view.read (Elt Ideal)
          (Cert.DynConv.conv (V c main_v23 : S8x9.Idx → EReal) (V c main_arg0 : S8x96x256x256.Idx → EReal)) := by
  show (cfg1.win 2).cut (grid1.coords t) ((dat1 (F := Ideal) V c).after 2 t) = _
  rw [after1_2]
  unfold outsAt1
  rw [out_block c (grid1.coords t) (ms1_0 t) (hs1_0 t) (ms1_1 t) (hs1_1 t) (ms1_2 t) (hs1_2 t) (iblk1 V c 0 t) (iblk1 V c 1 t)]
  rw [weights_block V c t, input_block V c t]
  obtain ⟨-, -, -, -, -, -, e0, e1, e2, e3⟩ := idx_facts t
  funext j
  rw [View.read_apply]
  show Cert.DynConv.convB (V c main_v23 : S8x9.Idx → EReal) (chanBlock (V c main_arg0 : S8x96x256x256.Idx → EReal) t.val (point_lt t)) (j : S8x2x256x256.Idx)
    = Cert.DynConv.conv (V c main_v23 : S8x9.Idx → EReal) (V c main_arg0 : S8x96x256x256.Idx → EReal) _
  rw [convB_chanBlock]
  congr 1
  funext a
  apply Fin.ext
  match a with
  | ⟨0, _⟩ => show (j 0).val = win1_2.index t (0 : Fin 4) * 8 + 1 * (j 0).val; rw [e0]; omega
  | ⟨1, _⟩ => show 2 * t.val + (j 1).val = win1_2.index t (1 : Fin 4) * 2 + 1 * (j 1).val; rw [e1]; omega
  | ⟨2, _⟩ => show (j 2).val = win1_2.index t (2 : Fin 4) * 256 + 1 * (j 2).val; rw [e2]; omega
  | ⟨3, _⟩ => show (j 3).val = win1_2.index t (3 : Fin 4) * 256 + 1 * (j 3).val; rw [e3]; omega

/-- An index of the result array is in point t's block iff each coordinate is in the block's range on its axis. -/
theorem mem_block (t : Fin cfg1.N) (i : S8x96x256x256.Idx) :
    i ∈ ((cfg1.win 2).blk t).view.set ↔ ∀ a : Fin 4, win1_2.index t a * S8x2x256x256.size a ≤ (i a).val ∧ (i a).val < win1_2.index t a * S8x2x256x256.size a + S8x2x256x256.size a := by
  show i ∈ ((View.whole main_v24).slice (win1_2.rect t)).set ↔ _
  rw [View.set_slice_whole, Rect.mem_set_unit]
  exact Iff.rfl

/-- Channel ch of the result lies in the block of point ch / 2. -/
theorem covered (i : S8x96x256x256.Idx) :
    ∃ t : Fin cfg1.N, (cfg1.win 2).flush t = true ∧ i ∈ ((cfg1.win 2).blk t).view.set := by
  have h0 : (i 0).val < 8 := (i 0).isLt
  have h1 : (i 1).val < 96 := (i 1).isLt
  have h2 : (i 2).val < 256 := (i 2).isLt
  have h3 : (i 3).val < 256 := (i 3).isLt
  have hN : cfg1.N = 48 := by decide
  let t : Fin cfg1.N := ⟨(i 1).val / 2, by omega⟩
  obtain ⟨-, -, -, -, -, -, e0, e1, e2, e3⟩ := idx_facts t
  have e1' : win1_2.index t (1 : Fin 4) = (i 1).val / 2 := e1
  refine ⟨t, flush1_2 t, ?_⟩
  rw [mem_block]
  intro a
  match a with
  | ⟨0, _⟩ => show win1_2.index t (0 : Fin 4) * 8 ≤ (i 0).val ∧ (i 0).val < win1_2.index t (0 : Fin 4) * 8 + 8; rw [e0]; omega
  | ⟨1, _⟩ => show win1_2.index t (1 : Fin 4) * 2 ≤ (i 1).val ∧ (i 1).val < win1_2.index t (1 : Fin 4) * 2 + 2; rw [e1']; omega
  | ⟨2, _⟩ => show win1_2.index t (2 : Fin 4) * 256 ≤ (i 2).val ∧ (i 2).val < win1_2.index t (2 : Fin 4) * 256 + 256; rw [e2]; omega
  | ⟨3, _⟩ => show win1_2.index t (3 : Fin 4) * 256 ≤ (i 3).val ∧ (i 3).val < win1_2.index t (3 : Fin 4) * 256 + 256; rw [e3]; omega

/-- The result array after region 1, whatever contents `V` the region is entered from. -/
theorem conv_array (c : Dev nD) :
    ((dat1 (F := Ideal) V c).arrAt 2 cfg1.N : S8x96x256x256.Idx → EReal)
      = Cert.DynConv.conv (V c main_v23 : S8x9.Idx → EReal) (V c main_arg0 : S8x96x256x256.Idx → EReal) :=
  (dat1 (F := Ideal) V c).arrAt_eq_of_cover 2
    (Cert.DynConv.conv (V c main_v23 : S8x9.Idx → EReal) (V c main_arg0 : S8x96x256x256.Idx → EReal))
    (fun t _ => flushed_eq V c t) covered

end Cert.KernelIdeal.ConvValue

end
-- ==== Proof.RefPool.lean ====
/-
  The reference's plane means read as values: the sum over both plane axes at once, divided by 65536, is the iterated
  sum times 2⁻¹⁶ — `pool`, read batch-major.
-/
import proofs.«131768_j87892210745472_1_alg».proof.Proof.Gen.ReferenceIdeal.Read
import proofs.«131768_j87892210745472_1_alg».proof.Proof.Spec
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The indices of the array whose two leading coordinates are (b, c) are the entries of plane (b, c): summed in any
    order (an additive commutative monoid regroups freely), they give the sum over the rows of the sums over the
    columns. The bijection sends an index to its pair (row, column) and a pair back to (b, c, row, column). -/
theorem sum_filter_drop_plane (hr : S8x96x256x256.ReducesTo [2, 3] S8x96) (x : S8x96x256x256.Idx → EReal)
    (b : Fin 8) (c : Fin 96) :
    ∑ i ∈ Finset.univ.filter (fun i => hr.drop i = ix2 b c), x i
      = ∑ h : Fin 256, ∑ w : Fin 256, x (ix4 b c h w) := by
  rw [← Fintype.sum_prod_type' (f := fun (h : Fin 256) (w : Fin 256) => x (ix4 b c h w))]
  -- an index dropping to (b, c) has leading coordinates b and c
  have lead : ∀ i : S8x96x256x256.Idx, hr.drop i = ix2 b c → i = ix4 b c (i 2) (i 3) := by
    intro i hi
    have e0 := hr.drop_apply_val_of_eq i 0 0
    have e1 := hr.drop_apply_val_of_eq i 1 1
    rw [hi] at e0 e1
    funext a
    match a with
    | ⟨0, _⟩ => exact Fin.ext e0.symm
    | ⟨1, _⟩ => exact Fin.ext e1.symm
    | ⟨2, _⟩ => rfl
    | ⟨3, _⟩ => rfl
  refine Finset.sum_nbij' (fun i => ((i 2 : Fin 256), (i 3 : Fin 256))) (fun p => ix4 b c p.1 p.2) ?_ ?_ ?_ ?_ ?_
  · intro i _; exact Finset.mem_univ _
  · intro p _
    refine Finset.mem_filter.2 ⟨Finset.mem_univ _, ?_⟩
    funext a
    match a with
    | ⟨0, _⟩ => exact Fin.ext (hr.drop_apply_val_of_eq (ix4 b c p.1 p.2) 0 0)
    | ⟨1, _⟩ => exact Fin.ext (hr.drop_apply_val_of_eq (ix4 b c p.1 p.2) 1 1)
  · intro i hi; exact (lead i (Finset.mem_filter.1 hi).2).symm
  · intro p _; rfl
  · intro i hi; exact congrArg x (lead i (Finset.mem_filter.1 hi).2)

/-- The reference's means stage at (b, c) is `pool` at (c, b). -/
theorem pooled_apply (x0 : (⟨S8x96x256x256, .f32⟩ : BufTy).Contents (Elt Ideal)) (b : Fin 8) (c : Fin 96) :
    (val_main_v2 (F := Ideal) x0 : S8x96.Idx → EReal) (ix2 b c)
      = Cert.DynConv.pool (x0 : S8x96x256x256.Idx → EReal) (ix2 c b) := by
  rw [val_main_v2_apply, val_main_v1_apply, val_main_cst_0_apply, Ideal.hostDivf_def, Ideal.ofBits_def]
  unfold val_main_v0 Host.reduceAdd
  rw [Ideal.hostReduceAdd_def, val_main_cst_apply, Ideal.ofBits_def, Ideal.ofBits_zero_f32]
  unfold Ideal.hostReduceAdd
  rw [sum_filter_drop_plane, zero_add, Cert.DynConv.div_65536]
  rfl

end Cert.ReferenceIdeal.RefValue

end
-- ==== Proof.RefConv.lean ====
/-
  The reference's result read as values: index by index it is `conv` of its own tap weights (the stage the softmax
  writes) and the input.
-/
import proofs.«131768_j87892210745472_1_alg».proof.Proof.Gen.ReferenceIdeal.Read
import proofs.«131768_j87892210745472_1_alg».proof.Proof.Spec
import Idealize.ShloMosaic.Lib.KernelVsHost

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The padding value of the reference's pad: the integer zero converted, which is the float zero. -/
theorem pad_value (k : S_.Idx) : (val_main_call1_v0 (F := Ideal) : S_.Idx → EReal) k = 0 := by
  rw [val_main_call1_v0_apply, val_main_c_apply]
  exact sitofp_zero (φ := .f32)

/-- The padded array of the reference read at an index whose four coordinates are `b`, `c`, `hp`, `wp` is plane
    `(b, c)` inside its border of zeros at the padded coordinates `(hp, wp)`. -/
theorem pad_read (x0 : (⟨S8x96x256x256, .f32⟩ : BufTy).Contents (Elt Ideal)) (j : S8x96x258x258.Idx)
    (b : Fin 8) (c : Fin 96) (hp wp : ℕ)
    (h0 : (j 0).val = b.val) (h1 : (j 1).val = c.val) (h2 : (j 2).val = hp) (h3 : (j 3).val = wp) :
    (val_main_v25 (F := Ideal) x0 : S8x96x258x258.Idx → EReal) j
      = Cert.DynConv.padded (x0 : S8x96x256x256.Idx → EReal) b c hp wp := by
  have hj2 : (j 2).val < 258 := (j 2).isLt
  have hj3 : (j 3).val < 258 := (j 3).isLt
  unfold val_main_v25 Cert.DynConv.padded
  by_cases hin : 1 ≤ hp ∧ hp ≤ 256 ∧ 1 ≤ wp ∧ wp ≤ 256
  · rw [dif_pos hin]
    refine pad_apply_of_inside _ _ _ _ _ _ _ j (ix4 b c ⟨hp - 1, by omega⟩ ⟨wp - 1, by omega⟩) (fun a => ?_)
    match a with
    | ⟨0, _⟩ => show (j 0).val = 0 + b.val * (0 + 1); omega
    | ⟨1, _⟩ => show (j 1).val = 0 + c.val * (0 + 1); omega
    | ⟨2, _⟩ => show (j 2).val = 1 + (hp - 1) * (0 + 1); omega
    | ⟨3, _⟩ => show (j 3).val = 1 + (wp - 1) * (0 + 1); omega
  · rw [dif_neg hin]
    by_cases hrow : 1 ≤ hp ∧ hp ≤ 256
    · refine (pad_apply_of_not_inside _ _ _ _ _ _ _ j (3 : Fin 4) (fun hc => ?_)).trans (pad_value _)
      have e1 : (1 : ℕ) ≤ (j 3).val := hc.1
      have e2 : ((j 3).val - 1) / (0 + 1) < 256 := hc.2.2
      omega
    · refine (pad_apply_of_not_inside _ _ _ _ _ _ _ j (2 : Fin 4) (fun hc => ?_)).trans (pad_value _)
      have e1 : (1 : ℕ) ≤ (j 2).val := hc.1
      have e2 : ((j 2).val - 1) / (0 + 1) < 256 := hc.2.2
      omega

/-- Tap 0 of the reference: weight column 0 of batch `b` times the padded plane at `(h + 0, w + 0)`. -/
theorem tap0 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v32 (F := Ideal) x0 x1 x2 x3 x4 : S8x96x256x256.Idx → EReal) (ix4 b c h w)
      = (val_main_v24 (F := Ideal) x0 x1 x2 x3 x4 : S8x9.Idx → EReal) (ix2 b 0)
        * Cert.DynConv.padded (x0 : S8x96x256x256.Idx → EReal) b c (h.val + 0) (w.val + 0) := by
  rw [val_main_v32_apply, val_main_v31_apply, val_main_v29_apply, val_main_v28_apply, val_main_v27_apply,
    val_main_v30_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 0 = 0; rfl)
  · show h.val = h.val + 0; omega
  · show w.val = w.val + 0; omega

/-- Tap 1 of the reference: weight column 1 of batch `b` times the padded plane at `(h + 0, w + 1)`. -/
theorem tap1 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v39 (F := Ideal) x0 x1 x2 x3 x4 : S8x96x256x256.Idx → EReal) (ix4 b c h w)
      = (val_main_v24 (F := Ideal) x0 x1 x2 x3 x4 : S8x9.Idx → EReal) (ix2 b 1)
        * Cert.DynConv.padded (x0 : S8x96x256x256.Idx → EReal) b c (h.val + 0) (w.val + 1) := by
  rw [val_main_v39_apply, val_main_v38_apply, val_main_v36_apply, val_main_v35_apply, val_main_v34_apply,
    val_main_v37_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 1 + 0 = 1; rfl)
  · show h.val = h.val + 0; omega
  · show 1 + w.val = w.val + 1; omega

/-- Tap 2 of the reference: weight column 2 of batch `b` times the padded plane at `(h + 0, w + 2)`. -/
theorem tap2 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v46 (F := Ideal) x0 x1 x2 x3 x4 : S8x96x256x256.Idx → EReal) (ix4 b c h w)
      = (val_main_v24 (F := Ideal) x0 x1 x2 x3 x4 : S8x9.Idx → EReal) (ix2 b 2)
        * Cert.DynConv.padded (x0 : S8x96x256x256.Idx → EReal) b c (h.val + 0) (w.val + 2) := by
  rw [val_main_v46_apply, val_main_v45_apply, val_main_v43_apply, val_main_v42_apply, val_main_v41_apply,
    val_main_v44_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 2 + 0 = 2; rfl)
  · show h.val = h.val + 0; omega
  · show 2 + w.val = w.val + 2; omega

/-- Tap 3 of the reference: weight column 3 of batch `b` times the padded plane at `(h + 1, w + 0)`. -/
theorem tap3 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v53 (F := Ideal) x0 x1 x2 x3 x4 : S8x96x256x256.Idx → EReal) (ix4 b c h w)
      = (val_main_v24 (F := Ideal) x0 x1 x2 x3 x4 : S8x9.Idx → EReal) (ix2 b 3)
        * Cert.DynConv.padded (x0 : S8x96x256x256.Idx → EReal) b c (h.val + 1) (w.val + 0) := by
  rw [val_main_v53_apply, val_main_v52_apply, val_main_v50_apply, val_main_v49_apply, val_main_v48_apply,
    val_main_v51_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 3 + 0 = 3; rfl)
  · show 1 + h.val = h.val + 1; omega
  · show w.val = w.val + 0; omega

/-- Tap 4 of the reference: weight column 4 of batch `b` times the padded plane at `(h + 1, w + 1)`. -/
theorem tap4 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v60 (F := Ideal) x0 x1 x2 x3 x4 : S8x96x256x256.Idx → EReal) (ix4 b c h w)
      = (val_main_v24 (F := Ideal) x0 x1 x2 x3 x4 : S8x9.Idx → EReal) (ix2 b 4)
        * Cert.DynConv.padded (x0 : S8x96x256x256.Idx → EReal) b c (h.val + 1) (w.val + 1) := by
  rw [val_main_v60_apply, val_main_v59_apply, val_main_v57_apply, val_main_v56_apply, val_main_v55_apply,
    val_main_v58_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 4 + 0 = 4; rfl)
  · show 1 + h.val = h.val + 1; omega
  · show 1 + w.val = w.val + 1; omega

/-- Tap 5 of the reference: weight column 5 of batch `b` times the padded plane at `(h + 1, w + 2)`. -/
theorem tap5 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v67 (F := Ideal) x0 x1 x2 x3 x4 : S8x96x256x256.Idx → EReal) (ix4 b c h w)
      = (val_main_v24 (F := Ideal) x0 x1 x2 x3 x4 : S8x9.Idx → EReal) (ix2 b 5)
        * Cert.DynConv.padded (x0 : S8x96x256x256.Idx → EReal) b c (h.val + 1) (w.val + 2) := by
  rw [val_main_v67_apply, val_main_v66_apply, val_main_v64_apply, val_main_v63_apply, val_main_v62_apply,
    val_main_v65_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 5 + 0 = 5; rfl)
  · show 1 + h.val = h.val + 1; omega
  · show 2 + w.val = w.val + 2; omega

/-- Tap 6 of the reference: weight column 6 of batch `b` times the padded plane at `(h + 2, w + 0)`. -/
theorem tap6 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v74 (F := Ideal) x0 x1 x2 x3 x4 : S8x96x256x256.Idx → EReal) (ix4 b c h w)
      = (val_main_v24 (F := Ideal) x0 x1 x2 x3 x4 : S8x9.Idx → EReal) (ix2 b 6)
        * Cert.DynConv.padded (x0 : S8x96x256x256.Idx → EReal) b c (h.val + 2) (w.val + 0) := by
  rw [val_main_v74_apply, val_main_v73_apply, val_main_v71_apply, val_main_v70_apply, val_main_v69_apply,
    val_main_v72_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 6 + 0 = 6; rfl)
  · show 2 + h.val = h.val + 2; omega
  · show w.val = w.val + 0; omega

/-- Tap 7 of the reference: weight column 7 of batch `b` times the padded plane at `(h + 2, w + 1)`. -/
theorem tap7 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v81 (F := Ideal) x0 x1 x2 x3 x4 : S8x96x256x256.Idx → EReal) (ix4 b c h w)
      = (val_main_v24 (F := Ideal) x0 x1 x2 x3 x4 : S8x9.Idx → EReal) (ix2 b 7)
        * Cert.DynConv.padded (x0 : S8x96x256x256.Idx → EReal) b c (h.val + 2) (w.val + 1) := by
  rw [val_main_v81_apply, val_main_v80_apply, val_main_v78_apply, val_main_v77_apply, val_main_v76_apply,
    val_main_v79_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 7 + 0 = 7; rfl)
  · show 2 + h.val = h.val + 2; omega
  · show 1 + w.val = w.val + 1; omega

/-- Tap 8 of the reference: weight column 8 of batch `b` times the padded plane at `(h + 2, w + 2)`. -/
theorem tap8 (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) (b : Fin 8) (c : Fin 96) (h w : Fin 256) :
    (val_main_v88 (F := Ideal) x0 x1 x2 x3 x4 : S8x96x256x256.Idx → EReal) (ix4 b c h w)
      = (val_main_v24 (F := Ideal) x0 x1 x2 x3 x4 : S8x9.Idx → EReal) (ix2 b 8)
        * Cert.DynConv.padded (x0 : S8x96x256x256.Idx → EReal) b c (h.val + 2) (w.val + 2) := by
  rw [val_main_v88_apply, val_main_v87_apply, val_main_v85_apply, val_main_v84_apply, val_main_v83_apply,
    val_main_v86_apply, Ideal.mulf_def]
  refine congrArg₂ (· * ·) (congrArg _ (funext fun a => ?_)) (pad_read x0 _ b c _ _ rfl rfl ?_ ?_)
  · match a with
    | ⟨0, _⟩ => exact Fin.ext (by show (b.val) / 1 = b.val; omega)
    | ⟨1, _⟩ => exact Fin.ext (by show 8 + 0 = 8; rfl)
  · show 2 + h.val = h.val + 2; omega
  · show 2 + w.val = w.val + 2; omega

/-- The zero array the running sum starts from reads `0` at every index. -/
theorem zero_read (i : S8x96x256x256.Idx) : (val_main_v26 (F := Ideal) : S8x96x256x256.Idx → EReal) i = 0 := by
  rw [val_main_v26_apply, val_main_cst_4_apply, Ideal.ofBits_def, Ideal.ofBits_zero_f32]

/-- The reference's last stage is the nine-tap sum of its weights stage and the input. -/
theorem result_conv (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) :
    (val_main_v89 (F := Ideal) x0 x1 x2 x3 x4 : S8x96x256x256.Idx → EReal)
      = Cert.DynConv.conv (val_main_v24 (F := Ideal) x0 x1 x2 x3 x4 : S8x9.Idx → EReal) (x0 : S8x96x256x256.Idx → EReal) := by
  funext i
  obtain ⟨b, c, h, w, rfl⟩ : ∃ (b : Fin 8) (c : Fin 96) (h : Fin 256) (w : Fin 256), i = ix4 b c h w :=
    ⟨i 0, i 1, i 2, i 3, eq_ix4 i⟩
  -- the nine additions, last first, down to the zero array; then each product read as its tap
  rw [val_main_v89_apply, val_main_v82_apply, val_main_v75_apply, val_main_v68_apply, val_main_v61_apply,
    val_main_v54_apply, val_main_v47_apply, val_main_v40_apply, val_main_v33_apply, zero_read,
    tap0, tap1, tap2, tap3, tap4, tap5, tap6, tap7, tap8]
  simp only [Ideal.addf_def]
  rfl

end Cert.ReferenceIdeal.RefValue

end
-- ==== Proof.Result.lean ====
/-
  The two programs' results as ONE function of the five argument arrays: the nine-tap sum `conv` of the input, weighted
  by `att` of the plane means `pool` (transposed to batch-major) and the four parameter arrays.
  The kernel reaches it region by region: region 0 leaves `pool` of the input in the means buffer, the host stretch
  leaves `att` of its transpose in the weights buffer, region 1 leaves `conv` of weights and input in the result.
  The reference reaches it stage by stage: its means stage is the same array read batch-major (a sum over both plane
  axes divided by 65536 against the iterated sum times 2⁻¹⁶), its weights stage the same `att`, its last stage `conv`.
-/
import proofs.«131768_j87892210745472_1_alg».proof.Proof.Spec
import proofs.«131768_j87892210745472_1_alg».proof.Proof.Attention
import proofs.«131768_j87892210745472_1_alg».proof.Proof.PoolBlocks
import proofs.«131768_j87892210745472_1_alg».proof.Proof.ConvBlocks
import proofs.«131768_j87892210745472_1_alg».proof.Proof.RefPool
import proofs.«131768_j87892210745472_1_alg».proof.Proof.RefConv
import Idealize.ShloMosaic.Lib.Pipeline.Value

set_option maxRecDepth 16384

noncomputable section

namespace Cert.Proof.Result

open Idealize.ShloMosaic Idealize.ShloMosaic.TcCoe Idealize.SL.Sem Idealize.ShloMosaic.ValueIdx

section Common
open Cert.KernelIdeal Cert.KernelIdeal.Gen

/-- The common result. -/
def result (x : Vec Ideal S8x96x256x256 .f32) (w1 : Vec Ideal S12x96 .f32) (b1 : Vec Ideal S12 .f32)
    (w2 : Vec Ideal S9x12 .f32) (b2 : Vec Ideal S9 .f32) : Vec Ideal S8x96x256x256 .f32 :=
  Cert.DynConv.conv
    (Cert.KernelIdeal.Att.att (F := Ideal)
      (transpose S8x96 [1, 0] (Cert.DynConv.pool x : S96x8.Idx → EReal) transposes_S96x8_S8x96_1_0) w1 b1 w2 b2)
    x

end Common

section Kernel
open Cert.KernelIdeal Cert.KernelIdeal.Gen

variable (m : (ℓ : Loc nD τ sig) → Buf (Elt Ideal) ℓ) (ρ : Dev nD → PrngReg)

/-- The kernel's result buffer at the last boundary is the common result of the launch contents of the arguments. -/
theorem kernel_result (c : Dev nD) :
    W5 m ρ c (Proc.devRef .tc main_v24)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have hmeans : W1 m ρ c (Proc.devRef .tc main_v0) = Cert.DynConv.pool (m ((c : Thread nD τ).loc main_arg0)) :=
    (W1_arr m ρ c 1).trans (Cert.KernelIdeal.PoolValue.pool_array (V0 m ρ) c)
  refine (W5_arr m ρ c 2).trans ((Cert.KernelIdeal.ConvValue.conv_array (V4 m ρ) c).trans ?_)
  show Cert.DynConv.conv (W4 m ρ c (Proc.devRef .tc main_v23)) (W4 m ρ c (Proc.devRef .tc main_arg0)) = _
  rw [Cert.KernelIdeal.Att.entry_weights, Cert.KernelIdeal.Att.entry_input, Cert.KernelIdeal.Att.exit0_arg1,
    Cert.KernelIdeal.Att.exit0_arg2, Cert.KernelIdeal.Att.exit0_arg3, Cert.KernelIdeal.Att.exit0_arg4, hmeans]
  rfl

end Kernel

section Reference
open Cert.ReferenceIdeal

/-- The reference's means stage is `pool` read batch-major. -/
theorem ref_means (x0 : (⟨S8x96x256x256, .f32⟩ : BufTy).Contents (Elt Ideal)) :
    Cert.ReferenceIdeal.Read.val_main_v2 (F := Ideal) x0
      = transpose Cert.KernelIdeal.S8x96 [1, 0] (Cert.DynConv.pool x0 : Cert.KernelIdeal.S96x8.Idx → EReal)
          Cert.KernelIdeal.Gen.transposes_S96x8_S8x96_1_0 := by
  funext i
  obtain ⟨b, c, rfl⟩ : ∃ (b : Fin 8) (c : Fin 96), i = ix2 b c := ⟨i 0, i 1, eq_ix2 i⟩
  refine (Cert.ReferenceIdeal.RefValue.pooled_apply x0 b c).trans (Eq.symm ?_)
  exact transpose_apply _ _ _ _ (ix2 c b) (fun a => by match a with | ⟨0, _⟩ => rfl | ⟨1, _⟩ => rfl)

/-- The reference's last stage is the common result of its arguments. -/
theorem ref_result (x0 : (⟨S8x96x256x256, .f32⟩ : BufTy).Contents (Elt Ideal)) (x1 : (⟨S12x96, .f32⟩ : BufTy).Contents (Elt Ideal))
    (x2 : (⟨S12, .f32⟩ : BufTy).Contents (Elt Ideal)) (x3 : (⟨S9x12, .f32⟩ : BufTy).Contents (Elt Ideal))
    (x4 : (⟨S9, .f32⟩ : BufTy).Contents (Elt Ideal)) :
    Cert.ReferenceIdeal.Read.val_main_v89 (F := Ideal) x0 x1 x2 x3 x4 = result x0 x1 x2 x3 x4 := by
  rw [Cert.ReferenceIdeal.RefValue.result_conv, Cert.KernelIdeal.Att.ref_weights, ref_means]
  rfl

end Reference

end Cert.Proof.Result

end
-- ==== Proof.lean ====
/-
  A dynamic depthwise 3×3 convolution: every (batch, channel) plane of `x : [8, 96, 256, 256]` is filtered, with zero
  padding, by nine tap weights that depend on the batch row only; the weights are a softmax over the taps of a small
  two-layer network applied to the per-plane means of `x`.

  The kernel computes it in two grids with host operations between: a first grid sums each plane (columns, then rows)
  and scales by 2⁻¹⁶; the host transposes the means, applies the two dense layers, the rectifier and the softmax; a
  second grid, two channels at a time, zero-fills its output block and adds the nine taps one after the other, each
  the weight's column broadcast over the block times the block shifted by one row and one column with zeros entering
  at the edge. The reference sums each plane over both axes at once and divides by 65536, applies the same layers, pads
  `x` by a border of zeros and adds the nine weighted windows of the padded array in the same order.

  At the extended reals the two are one function of the five arguments (Proof/Result.lean `result`):
  * the means agree because addition of extended reals is commutative and associative (a sum over a plane is the
    iterated sum) and because dividing by 65536 is multiplying by 2⁻¹⁶ on EVERY extended real (both are exact
    binary words); no finiteness is used, so the precondition is never opened;
  * the layers and the softmax are the same operations in the same order, kept closed;
  * the nine taps meet in the padded read `padded`: the kernel's shifted block and the reference's window of the padded
    array are both the plane's entry inside the plane and the literal zero on the border, and the products and the
    running sum are spelt in the same order on both sides.
  The kernel's value is read off its frame run region by region (Proof/PoolBlocks.lean, Proof/Attention.lean,
  Proof/ConvPieces.lean, Proof/ConvTaps.lean, Proof/ConvBlocks.lean); the reference's off its run stage by stage
  (Proof/RefPool.lean, Proof/RefConv.lean). The idealization rewrote nothing, so `preserves` is `True`.
-/
import proofs.«131768_j87892210745472_1_alg».proof.Defs
import proofs.«131768_j87892210745472_1_alg».proof.Proof.Gen.Kernel
import proofs.«131768_j87892210745472_1_alg».proof.Proof.Gen.Kernel.Skeleton
import proofs.«131768_j87892210745472_1_alg».proof.Proof.Gen.Kernel.Launch
import proofs.«131768_j87892210745472_1_alg».proof.Proof.Gen.Kernel.Points
import proofs.«131768_j87892210745472_1_alg».proof.Proof.Gen.Kernel.Frame
import proofs.«131768_j87892210745472_1_alg».proof.Proof.Gen.KernelIdeal
import proofs.«131768_j87892210745472_1_alg».proof.Proof.Gen.KernelIdeal.Skeleton
import proofs.«131768_j87892210745472_1_alg».proof.Proof.Gen.KernelIdeal.Launch
import proofs.«131768_j87892210745472_1_alg».proof.Proof.Gen.KernelIdeal.Points
import proofs.«131768_j87892210745472_1_alg».proof.Proof.Gen.KernelIdeal.Frame
import proofs.«131768_j87892210745472_1_alg».proof.Proof.Gen.ReferenceIdeal
import proofs.«131768_j87892210745472_1_alg».proof.Proof.Gen.Pre_finite_inputs
import proofs.«131768_j87892210745472_1_alg».proof.Proof.Gen.ReferenceIdeal.Run
import proofs.«131768_j87892210745472_1_alg».proof.Proof.Gen.ReferenceIdeal.Read
import proofs.«131768_j87892210745472_1_alg».proof.Proof.KernelRun
import proofs.«131768_j87892210745472_1_alg».proof.Proof.Result
import Idealize.ShloMosaic.Adequacy
import Idealize.ShloMosaic.Init

noncomputable section

namespace Cert.Proof

open Idealize.ShloMosaic Idealize.ShloMosaic.TcCoe Idealize.SL.Sem

/-- Each program runs to the end, nothing faulting, its arguments unchanged: the two kernels' frames over both grids and
    the host stretch between; the reference's from its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result buffer at `result` of them. -/
theorem algebraic : Cert.algebraic_KernelIdeal_ReferenceIdeal := by
  intro m ρ m' ρ' _ hagree
  refine ⟨fun c => Cert.Proof.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.Proof.Result.kernel_result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, (hagree c).1, (hagree c).2.1, (hagree c).2.2.1, (hagree c).2.2.2.1,
      (hagree c).2.2.2.2]
    exact Cert.Proof.Result.ref_result _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
